-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x3 : Shape := ⟨3, ![4, 4096, 3]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel

variable [Facts]

def fn {F : FTy → Type} [FloatOps F] (main_arg0 : FVec F S4x4096x3 .f32) (main_arg1 : FVec F S4x4096x3 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S4x4096x3 .f32 := Host.absf main_arg1
  let main_cst_0 : FVec F S_ .f32 := constant S_ .f32 0x7F800000#32
  let main_v5 : FVec F S4x4096x3 .f32 := broadcastInDim S4x4096x3 ![] bcast_S_S4x4096x3 main_cst_0
  let main_v6 : IVec S4x4096x3 1 := cmpf .olt main_v4 main_v5
  let main_c_1 : IVec S_ 1 := constantI S_ 1 1#1
  let main_v7 : IVec S_ 1 := (fun x v => Host.reduce IntOp.andi x v reducesTo_S4x4096x3_S_d0_1_2 h_S_) main_v6 main_c_1
  let main_v8 : IVec S_ 1 := andi main_v3 main_v7
  main_v8
-- ==== Kernel.lean ====
abbrev S4x4096x3 : Shape := ⟨3, ![4, 4096, 3]⟩
abbrev S4x4096 : Shape := ⟨2, ![4, 4096]⟩
abbrev S4x512x3 : Shape := ⟨3, ![4, 512, 3]⟩
abbrev S4x512 : Shape := ⟨2, ![4, 512]⟩
abbrev S4x512x512 : Shape := ⟨3, ![4, 512, 512]⟩
abbrev S4x512x1 : Shape := ⟨3, ![4, 512, 1]⟩
abbrev S4x1x512 : Shape := ⟨3, ![4, 1, 512]⟩
abbrev S_ : Shape := ⟨0, ![]⟩
abbrev S4 : Shape := ⟨1, ![4]⟩

abbrev nBuf : Space → Nat
  | .hbm => 24
  | .vmem => 14
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096, .f32⟩
  | .hbm, ⟨3, _⟩ => ⟨S4x4096, .f32⟩
  | .hbm, ⟨4, _⟩ => ⟨S_, .f32⟩
  | .hbm, ⟨5, _⟩ => ⟨S4, .f32⟩
  | .hbm, ⟨6, _⟩ => ⟨S_, .f32⟩
  | .hbm, ⟨7, _⟩ => ⟨S4, .f32⟩
  | .hbm, ⟨8, _⟩ => ⟨S4, .f32⟩
  | .hbm, ⟨9, _⟩ => ⟨S_, .f32⟩
  | .hbm, ⟨10, _⟩ => ⟨S4, .f32⟩
  | .hbm, ⟨11, _⟩ => ⟨S_, .f32⟩
  | .hbm, ⟨12, _⟩ => ⟨S4, .f32⟩
  | .hbm, ⟨13, _⟩ => ⟨S4, .f32⟩
  | .hbm, ⟨14, _⟩ => ⟨S4, .f32⟩
  | .hbm, ⟨15, _⟩ => ⟨S_, .f32⟩
  | .hbm, ⟨16, _⟩ => ⟨S4, .f32⟩
  | .hbm, ⟨17, _⟩ => ⟨S4, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S4x512x3, .f32⟩
  | .local _ .vmem, ⟨1, _⟩ => ⟨S4x512x3, .f32⟩
  | .local _ .vmem, ⟨2, _⟩ => ⟨S4x512x3, .f32⟩
  | .local _ .vmem, ⟨3, _⟩ => ⟨S4x512x3, .f32⟩
  | .local _ .vmem, ⟨4, _⟩ => ⟨S4x512, .f32⟩
  | .local _ .vmem, ⟨5, _⟩ => ⟨S4x512, .f32⟩
  | .local _ .vmem, ⟨6, _⟩ => ⟨S4x512, .f32⟩
  | .local _ .vmem, ⟨7, _⟩ => ⟨S4x512x3, .f32⟩
  | .local _ .vmem, ⟨8, _⟩ => ⟨S4x512x3, .f32⟩
  | .local _ .vmem, ⟨9, _⟩ => ⟨S4x512x3, .f32⟩
  | .local _ .vmem, ⟨10, _⟩ => ⟨S4x512x3, .f32⟩
  | .local _ .vmem, ⟨11, _⟩ => ⟨S4x512, .f32⟩
  | .local _ .vmem, ⟨12, _⟩ => ⟨S4x512, .f32⟩
  | .local _ .vmem, ⟨13, _⟩ => ⟨S4x512, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_cst_4 : Ref sig .tc := ⟨.hbm, 18, rfl⟩
abbrev main_v11 : Ref sig .tc := ⟨.hbm, 19, rfl⟩
abbrev main_cst_5 : Ref sig .tc := ⟨.hbm, 20, rfl⟩
abbrev main_v12 : Ref sig .tc := ⟨.hbm, 21, rfl⟩
abbrev main_cst_6 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v26 : BitVec 1 := Scalar.cmpi .eq arg1 c7_i32
  let v27 : BitVec 32 := Scalar.extui v26
  let c0_i32_14 : BitVec 32 := 0#32
  let v28 : BitVec 1 := Scalar.cmpi .ne v27 c0_i32_14
  v28

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v26 : BitVec 1 := Scalar.cmpi .eq arg1 c7_i32
  let v27 : BitVec 32 := Scalar.extui v26
  let c0_i32_14 : BitVec 32 := 0#32
  let v28 : BitVec 1 := Scalar.cmpi .ne v27 c0_i32_14
  v28

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S4x512x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4x512x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S4x512_S4x512_0_0 : ∀ a, (![0, 0] : Fin 2 → Nat) a + S4x512.size a ≤ S4x512.size a
  h_S4x512 : 0 < S4x512.numel
  shapeCasts_S4x512_S4x512 : S4x512.ShapeCasts S4x512
  inb_S4x512x3_S4x512x3_0_0_0 : ∀ a, (![0, 0, 0] : Fin 3 → Nat) a + S4x512x3.size a ≤ S4x512x3.size a
  h_S4x512x3 : 0 < S4x512x3.numel
  reduces_S4x512x3_S4x512 : S4x512x3.Reduces [2] S4x512
  bitsLt_bf16_f32 : FTy.bits .bf16 < FTy.bits .f32
  shapeCasts_S4x512_S4x512x1 : S4x512.ShapeCasts S4x512x1
  shapeCasts_S4x512_S4x1x512 : S4x512.ShapeCasts S4x1x512
  broadcasts_S4x512x1_S4x512x512 : S4x512x1.Broadcasts S4x512x512
  broadcasts_S4x1x512_S4x512x512 : S4x1x512.Broadcasts S4x512x512
  reduces_S4x512x512_S4x512 : S4x512x512.Reduces [2] S4x512
  reducesTo_S4x4096_S4_d1 : S4x4096.ReducesTo [1] S4
  h_S_ : 0 < S_.numel
  bcast_S_S4 : S_.BroadcastsInDim S4 (![] : Fin 0 → Fin S4.rank)
  reducesTo_S4_S_d0 : S4.ReducesTo [0] S_
  dot_S4x512x3_S4x512x3_S4x512x512_2_2_1_1_0_0_wf : DotDims.WF S4x512x3 S4x512x3 S4x512x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x3.size a ≤ S4x4096x3.size a
  hwx0_0 : ∀ i : grid0.Coords, EltTy.bits .f32 = 32 ∨ (Rect.block (s := S4x4096x3) S4x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x3.size a ≤ S4x4096x3.size a
  hwx0_1 : ∀ i : grid0.Coords, EltTy.bits .f32 = 32 ∨ (Rect.block (s := S4x4096x3) S4x512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512.size a ≤ S4x4096.size a
  hwx0_2 : ∀ i : grid0.Coords, EltTy.bits .f32 = 32 ∨ (Rect.block (s := S4x4096) S4x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x512x3.size a ≤ S4x4096x3.size a
  hwx1_0 : ∀ i : grid1.Coords, EltTy.bits .f32 = 32 ∨ (Rect.block (s := S4x4096x3) S4x512x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x512x3.size a ≤ S4x4096x3.size a
  hwx1_1 : ∀ i : grid1.Coords, EltTy.bits .f32 = 32 ∨ (Rect.block (s := S4x4096x3) S4x512x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x512.size a ≤ S4x4096.size a
  hwx1_2 : ∀ i : grid1.Coords, EltTy.bits .f32 = 32 ∨ (Rect.block (s := S4x4096) S4x512.size (cc1_transform_2 i) (hinb1_2 i)).WholeWords (EltTy.packing .f32)

variable [Facts₀]

def dot_S4x512x3_S4x512x3_S4x512x512_2_2_1_1_0_0 : DotDims S4x512x3 S4x512x3 S4x512x512 where
  lhsContracting := [2]
  rhsContracting := [2]
  lhsNonContracting := [1]
  rhsNonContracting := [1]
  lhsBatch := [0]
  rhsBatch := [0]
  wf := dot_S4x512x3_S4x512x3_S4x512x512_2_2_1_1_0_0_wf

abbrev win0_0 : Pipeline.Window sig grid0 :=
  Pipeline.Window.ofSpec (Memref.whole main_arg0) S4x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S4x512x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S4x512x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S4x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S4x4096x3 : Shape := ⟨3, ![4, 4096, 3]⟩
abbrev S_ : Shape := ⟨0, ![]⟩
abbrev S4x4096 : Shape := ⟨2, ![4, 4096]⟩
abbrev S4x4096x4096 : Shape := ⟨3, ![4, 4096, 4096]⟩
abbrev S4x4096x1 : Shape := ⟨3, ![4, 4096, 1]⟩
abbrev S4x1x4096 : Shape := ⟨3, ![4, 1, 4096]⟩
abbrev S4 : Shape := ⟨1, ![4]⟩

abbrev nBuf : Space → Nat
  | .hbm => 42
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x3, .f32⟩
  | .hbm, ⟨3, _⟩ => ⟨S_, .f32⟩
  | .hbm, ⟨4, _⟩ => ⟨S4x4096, .f32⟩
  | .hbm, ⟨5, _⟩ => ⟨S4x4096x3, .f32⟩
  | .hbm, ⟨6, _⟩ => ⟨S_, .f32⟩
  | .hbm, ⟨7, _⟩ => ⟨S4x4096, .f32⟩
  | .hbm, ⟨8, _⟩ => ⟨S4x4096x4096, .f32⟩
  | .hbm, ⟨9, _⟩ => ⟨S4x4096x1, .f32⟩
  | .hbm, ⟨10, _⟩ => ⟨S4x1x4096, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S_, .f32⟩
  | .hbm, ⟨15, _⟩ => ⟨S4x4096x4096, .f32⟩
  | .hbm, ⟨16, _⟩ => ⟨S4x4096x4096, .f32⟩
  | .hbm, ⟨17, _⟩ => ⟨S4x4096x4096, .f32⟩
  | .hbm, ⟨18, _⟩ => ⟨S_, .f32⟩
  | .hbm, ⟨19, _⟩ => ⟨S4x4096, .f32⟩
  | .hbm, ⟨20, _⟩ => ⟨S_, .f32⟩
  | .hbm, ⟨21, _⟩ => ⟨S4, .f32⟩
  | .hbm, ⟨22, _⟩ => ⟨S_, .f32⟩
  | .hbm, ⟨23, _⟩ => ⟨S4, .f32⟩
  | .hbm, ⟨24, _⟩ => ⟨S4, .f32⟩
  | .hbm, ⟨25, _⟩ => ⟨S_, .f32⟩
  | .hbm, ⟨26, _⟩ => ⟨S4x4096, .f32⟩
  | .hbm, ⟨27, _⟩ => ⟨S_, .f32⟩
  | .hbm, ⟨28, _⟩ => ⟨S4, .f32⟩
  | .hbm, ⟨29, _⟩ => ⟨S_, .f32⟩
  | .hbm, ⟨30, _⟩ => ⟨S4, .f32⟩
  | .hbm, ⟨31, _⟩ => ⟨S4, .f32⟩
  | .hbm, ⟨32, _⟩ => ⟨S4, .f32⟩
  | .hbm, ⟨33, _⟩ => ⟨S_, .f32⟩
  | .hbm, ⟨34, _⟩ => ⟨S4, .f32⟩
  | .hbm, ⟨35, _⟩ => ⟨S4, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_cst_9 : Ref sig .tc := ⟨.hbm, 36, rfl⟩
abbrev main_v24 : Ref sig .tc := ⟨.hbm, 37, rfl⟩
abbrev main_cst_10 : Ref sig .tc := ⟨.hbm, 38, rfl⟩
abbrev main_v25 : Ref sig .tc := ⟨.hbm, 39, rfl⟩
abbrev main_cst_11 : Ref sig .tc := ⟨.hbm, 40, rfl⟩
abbrev main_v26 : Ref sig .tc := ⟨.hbm, 41, rfl⟩

abbrev nD : Nat := 1
abbrev τ : Topo := Topo.v7x

variable {F : FTy → Type} [FloatOps F]

class Facts₀ : Prop where
  reducesTo_S4x4096x3_S4x4096_d2 : S4x4096x3.ReducesTo [2] S4x4096
  h_S_ : 0 < S_.numel
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  reducesTo_S4x4096x4096_S4x4096_d1 : S4x4096x4096.ReducesTo [1] S4x4096
  reducesTo_S4x4096_S4_d1 : S4x4096.ReducesTo [1] S4
  bcast_S_S4 : S_.BroadcastsInDim S4 (![] : Fin 0 → Fin S4.rank)
  reducesTo_S4x4096x4096_S4x4096_d2 : S4x4096x4096.ReducesTo [2] S4x4096
  reducesTo_S4_S_d0 : S4.ReducesTo [0] S_
  dot_S4x4096x3_S4x4096x3_S4x4096x4096_2_2_1_1_0_0_wf : DotDims.WF S4x4096x3 S4x4096x3 S4x4096x4096 [2] [2] [1] [1] [0] [0]

variable [Facts₀]

def dot_S4x4096x3_S4x4096x3_S4x4096x4096_2_2_1_1_0_0 : DotDims S4x4096x3 S4x4096x3 S4x4096x4096 where
  lhsContracting := [2]
  rhsContracting := [2]
  lhsNonContracting := [1]
  rhsNonContracting := [1]
  lhsBatch := [0]
  rhsBatch := [0]
  wf := dot_S4x4096x3_S4x4096x3_S4x4096x4096_2_2_1_1_0_0_wf

class Facts : Prop extends Facts₀ where

variable [Facts]
-- ==== Proof.K.Conds.lean ====
/- Where the body's two conditionals are taken on the 8 × 8 grid of each of the two calls, and where each call's
   output window is idle: the accumulator over key tiles is reset at the first key tile of a query tile and written
   out at the last one. -/
import proofs.«144344_j69870527971439_1_alg».proof.Proof.Gen.Kernel.Launch
import proofs.«144344_j69870527971439_1_alg».proof.Proof.Gen.Kernel.Skeleton
import proofs.«144344_j69870527971439_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

/-- The zero offsets of a whole-buffer access, as the constant function (rank 2 and rank 3). -/
theorem zeros2 : (![0, 0] : Fin 2 → Nat) = fun _ => 0 := funext fun a => by fin_cases a <;> rfl
theorem zeros3 : (![0, 0, 0] : Fin 3 → Nat) = fun _ => 0 := funext fun a => by fin_cases a <;> rfl

/-! ## Region 0: where the two branches of the body are taken, and where the output window is idle -/

/-- The first branch (the accumulator is reset to +∞) is guarded by "the key-tile coordinate is 0". -/
abbrev reset0 (i : grid0.Coords) : Prop :=
  (Scalar.cmpi .ne (Scalar.extui (Scalar.cmpi .eq (BitVec.ofNat 32 (i 1).val) 0#32)) 0#32) = 1#1
/-- On the 8 × 8 grid, walked row-major, that is the points ≡ 0 (mod 8). -/
theorem hreset0 : ∀ t : Fin cfg0.N, reset0 (grid0.coords t) ↔ t.val % 8 = 0 :=
  (by decide +kernel : ∀ t : Fin grid0.N, reset0 (grid0.coords t) ↔ t.val % 8 = 0)

/-- The second branch (the accumulator is copied to the output block) is guarded by "the key-tile coordinate is 7". -/
abbrev emit0 (i : grid0.Coords) : Prop := k0_cond2 i = 1#1
/-- That is the points ≡ 7 (mod 8): the last key tile of each query tile. -/
theorem hemit0 : ∀ t : Fin cfg0.N, emit0 (grid0.coords t) ↔ t.val % 8 = 7 :=
  (by decide +kernel : ∀ t : Fin grid0.N, emit0 (grid0.coords t) ↔ t.val % 8 = 7)

/-- The two input windows are never idle. -/
theorem live0_0 : ∀ t : Fin cfg0.N, cfg0.idle 0 (grid0.coords t) = false := by decide +kernel
theorem live0_1 : ∀ t : Fin cfg0.N, cfg0.idle 1 (grid0.coords t) = false := by decide +kernel
/-- The output window is idle exactly off the emitting points, and is not written back there. -/
theorem idle0_2 : ∀ t : Fin cfg0.N, ¬emit0 (grid0.coords t) → cfg0.idle 2 (grid0.coords t) = true := by decide +kernel
theorem noFlush0_2 : ∀ t : Fin cfg0.N, ¬emit0 (grid0.coords t) → (cfg0.win 2).flush t = false := by decide +kernel
theorem live0_2 : ∀ t : Fin cfg0.N, emit0 (grid0.coords t) → cfg0.idle 2 (grid0.coords t) = false := by decide +kernel

/-- The staging memrefs the body is called with at point `t`, and the scratch accumulator. -/
abbrev ms0_0 (t : Fin cfg0.N) : Memref sig .tc .vmem S4x512x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x512x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x512 .f32 := win0_2.stage (cfg0.slots t 2)
abbrev hs0_2 (t : Fin cfg0.N) : (ms0_2 t).IsWhole := hstage0_2 ((cfg0.slots t 2).cast nbuf0_2)
abbrev acc0 : Memref sig .tc .vmem S4x512 .f32 := Memref.whole cc0_scratch0

/-! ## Region 1: where the two branches of the body are taken, and where the output window is idle -/

/-- The first branch (the accumulator is reset to +∞) is guarded by "the key-tile coordinate is 0". -/
abbrev reset1 (i : grid1.Coords) : Prop :=
  (Scalar.cmpi .ne (Scalar.extui (Scalar.cmpi .eq (BitVec.ofNat 32 (i 1).val) 0#32)) 0#32) = 1#1
/-- On the 8 × 8 grid, walked row-major, that is the points ≡ 0 (mod 8). -/
theorem hreset1 : ∀ t : Fin cfg1.N, reset1 (grid1.coords t) ↔ t.val % 8 = 0 :=
  (by decide +kernel : ∀ t : Fin grid1.N, reset1 (grid1.coords t) ↔ t.val % 8 = 0)

/-- The second branch (the accumulator is copied to the output block) is guarded by "the key-tile coordinate is 7". -/
abbrev emit1 (i : grid1.Coords) : Prop := k1_cond2 i = 1#1
/-- That is the points ≡ 7 (mod 8): the last key tile of each query tile. -/
theorem hemit1 : ∀ t : Fin cfg1.N, emit1 (grid1.coords t) ↔ t.val % 8 = 7 :=
  (by decide +kernel : ∀ t : Fin grid1.N, emit1 (grid1.coords t) ↔ t.val % 8 = 7)

/-- The two input windows are never idle. -/
theorem live1_0 : ∀ t : Fin cfg1.N, cfg1.idle 0 (grid1.coords t) = false := by decide +kernel
theorem live1_1 : ∀ t : Fin cfg1.N, cfg1.idle 1 (grid1.coords t) = false := by decide +kernel
/-- The output window is idle exactly off the emitting points, and is not written back there. -/
theorem idle1_2 : ∀ t : Fin cfg1.N, ¬emit1 (grid1.coords t) → cfg1.idle 2 (grid1.coords t) = true := by decide +kernel
theorem noFlush1_2 : ∀ t : Fin cfg1.N, ¬emit1 (grid1.coords t) → (cfg1.win 2).flush t = false := by decide +kernel
theorem live1_2 : ∀ t : Fin cfg1.N, emit1 (grid1.coords t) → cfg1.idle 2 (grid1.coords t) = false := by decide +kernel

/-- The staging memrefs the body is called with at point `t`, and the scratch accumulator. -/
abbrev ms1_0 (t : Fin cfg1.N) : Memref sig .tc .vmem S4x512x3 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4x512x3 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x512 .f32 := win1_2.stage (cfg1.slots t 2)
abbrev hs1_2 (t : Fin cfg1.N) : (ms1_2 t).IsWhole := hstage1_2 ((cfg1.slots t 2).cast nbuf1_2)
abbrev acc1 : Memref sig .tc .vmem S4x512 .f32 := Memref.whole cc1_scratch0

/-! ## The class invariant with each call's scratch singled out

Between grid points a region's invariant is the core's scoped buffers that no window of the region stages — this call's
scratch accumulator, and the OTHER call's staging buffers and scratch — each at some contents, beside the generator
register. The two lemmas per region pull this call's scratch to the front and put it back. -/

local notation "𝕄" => MT nD τ sig Unit (Elt F) ℕ (UR sig nD τ) ℕ

/-- Call 0's view of the other scoped buffers: call 1's staging buffers and scratch, each at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))
/-- Call 1's view of the other scoped buffers: call 0's staging buffers and scratch, each at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

theorem PhiA0_open (c : Dev nD) : (Pipeline.ΦA spec0 c : sProp 𝕄)
    ⊢ iprop(iprop((∃ d, owns (c : Thread nD τ) acc0 fullShare d) ∗ others0 (F := F) c) ∗ (∃ r, prngReg c r)) := by
  unfold Pipeline.ΦA; rw [scopedRest0_eq]; unfold others0; simp only [acc0, owns_whole]; exact .rfl
theorem PhiA0_close (c : Dev nD) : iprop(iprop((∃ d, owns (c : Thread nD τ) acc0 fullShare d) ∗ others0 (F := F) c) ∗ (∃ r, prngReg c r))
    ⊢ (Pipeline.ΦA spec0 c : sProp 𝕄) := by
  unfold Pipeline.ΦA; rw [scopedRest0_eq]; unfold others0; simp only [acc0, owns_whole]; exact .rfl

theorem PhiA1_open (c : Dev nD) : (Pipeline.ΦA spec1 c : sProp 𝕄)
    ⊢ iprop(iprop((∃ d, owns (c : Thread nD τ) acc1 fullShare d) ∗ others1 (F := F) c) ∗ (∃ r, prngReg c r)) := by
  unfold Pipeline.ΦA; rw [scopedRest1_eq]; unfold others1; simp only [acc1, owns_whole]
  iintro ⟨⟨H1, H2, H3, H4, H5, H6, H7, HS⟩, Hg⟩
  isplitr [Hg]
  · isplitl [HS]; · iexact HS
    isplitl [H1]; · iexact H1
    isplitl [H2]; · iexact H2
    isplitl [H3]; · iexact H3
    isplitl [H4]; · iexact H4
    isplitl [H5]; · iexact H5
    isplitl [H6]; · iexact H6
    iexact H7
  iexact Hg
theorem PhiA1_close (c : Dev nD) : iprop(iprop((∃ d, owns (c : Thread nD τ) acc1 fullShare d) ∗ others1 (F := F) c) ∗ (∃ r, prngReg c r))
    ⊢ (Pipeline.ΦA spec1 c : sProp 𝕄) := by
  unfold Pipeline.ΦA; rw [scopedRest1_eq]; unfold others1; simp only [acc1, owns_whole]
  iintro ⟨⟨HS, H1, H2, H3, H4, H5, H6, H7⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact HS
  iexact Hg

end Cert.Kernel.Hand

end
-- ==== Proof.K.Runs0.lean ====
/- The body of call 0 run once, in each of the three control cases the grid meets. With `p` the query block, `o` the
   key block and `a` the accumulator the point before left, the body leaves `step p o a` in the accumulator — the
   elementwise minimum of `a` and the block's row minima of the squared distances (the skeleton's second payload) —,
   starting from the +∞ splat (its first payload) where the key-tile coordinate is 0, and copies the accumulator to
   the output block where it is 7. -/
import proofs.«144344_j69870527971439_1_alg».proof.Proof.K.Conds
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- First key tile of a query tile: the accumulator restarts from +∞; the output block is not touched. -/
theorem run0_first (c : Dev nD) (i : grid0.Coords) (arg2 : Memref sig .tc .vmem S4x512x3 .f32) (harg2 : arg2.IsWhole)
    (arg3 : Memref sig .tc .vmem S4x512x3 .f32) (harg3 : arg3.IsWhole) (arg4 : Memref sig .tc .vmem S4x512 .f32) (harg4 : arg4.IsWhole)
    (arg5 : Memref sig .tc .vmem S4x512 .f32) (harg5 : arg5.IsWhole) (hc0 : reset0 i) (hc1 : ¬emit0 i)
    (p o : Vec F S4x512x3 .f32) (xo : Vec F S4x512 .f32) (E : Set ℕ) (K : PUnit → sProp 𝕄) :
    iprop(owns (c : Thread nD τ) arg2 fullShare p ∗ owns (c : Thread nD τ) arg3 fullShare o ∗ owns (c : Thread nD τ) arg4 fullShare xo ∗ (∃ d, owns (c : Thread nD τ) arg5 fullShare d)
        ∗ (iprop(owns (c : Thread nD τ) arg2 fullShare p ∗ owns (c : Thread nD τ) arg3 fullShare o ∗ owns (c : Thread nD τ) arg4 fullShare xo
            ∗ owns (c : Thread nD τ) arg5 fullShare (k0_pay2 p o (k0_pay1 (F := F)))) -∗ K ⟨⟩))
      ⊢ wp frame (wpE (defs₀ (F := F)) Variants.none c none) E (cc0__min_reduce_kernel i arg2 harg2 arg3 harg3 arg4 harg4 arg5 harg5) K := by
  simp only [cc0__min_reduce_kernel_eq_skeleton]; unfold cc0__min_reduce_kernel_skel
  unfold owns
  iintro ⟨⟨%f0, %hf0, H0⟩, ⟨%f1, %hf1, H1⟩, ⟨%f4, %hf4, H4⟩, ⟨%d5, %f5, -, H5⟩, Hk⟩
  obtain rfl := harg2.eq_unread hf0; obtain rfl := harg3.eq_unread hf1; obtain rfl := harg4.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact harg4.read_unread _
    iexact H4
  iexists _; isplitr
  swap; · iexact H5
  ipureintro
  sl_unfold_words
  rw [View.read_writes_eq_canon _ _ _ (fun y => ⟨_, List.mem_cons_self, View.mem_set_unit_zero zeros2 Gen.inb_S4x512_S4x512_0_0 y⟩)]
  rw [View.canon_cons_unit_zero (S := S4x512) zeros2]
  simp only [View.readAt_eq_ld, harg2.read_unread, harg3.read_unread, View.readCov_unit_zero (S := S4x512) _ zeros2,
    View.ld_unit_zero (S := S4x512x3) zeros3, View.ld_unit_zero (S := S4x512) zeros2]

set_option maxHeartbeats 2000000 in
/-- A middle key tile: the accumulator is updated in place; the output block is not touched. -/
theorem run0_mid (c : Dev nD) (i : grid0.Coords) (arg2 : Memref sig .tc .vmem S4x512x3 .f32) (harg2 : arg2.IsWhole)
    (arg3 : Memref sig .tc .vmem S4x512x3 .f32) (harg3 : arg3.IsWhole) (arg4 : Memref sig .tc .vmem S4x512 .f32) (harg4 : arg4.IsWhole)
    (arg5 : Memref sig .tc .vmem S4x512 .f32) (harg5 : arg5.IsWhole) (hc0 : ¬reset0 i) (hc1 : ¬emit0 i)
    (p o : Vec F S4x512x3 .f32) (xo a : Vec F S4x512 .f32) (E : Set ℕ) (K : PUnit → sProp 𝕄) :
    iprop(owns (c : Thread nD τ) arg2 fullShare p ∗ owns (c : Thread nD τ) arg3 fullShare o ∗ owns (c : Thread nD τ) arg4 fullShare xo ∗ owns (c : Thread nD τ) arg5 fullShare a
        ∗ (iprop(owns (c : Thread nD τ) arg2 fullShare p ∗ owns (c : Thread nD τ) arg3 fullShare o ∗ owns (c : Thread nD τ) arg4 fullShare xo
            ∗ owns (c : Thread nD τ) arg5 fullShare (k0_pay2 p o a)) -∗ K ⟨⟩))
      ⊢ wp frame (wpE (defs₀ (F := F)) Variants.none c none) E (cc0__min_reduce_kernel i arg2 harg2 arg3 harg3 arg4 harg4 arg5 harg5) K := by
  simp only [cc0__min_reduce_kernel_eq_skeleton]; unfold cc0__min_reduce_kernel_skel
  unfold owns
  iintro ⟨⟨%f0, %hf0, H0⟩, ⟨%f1, %hf1, H1⟩, ⟨%f4, %hf4, H4⟩, ⟨%f5, %hf5, H5⟩, Hk⟩
  obtain rfl := harg2.eq_unread hf0; obtain rfl := harg3.eq_unread hf1
  obtain rfl := harg4.eq_unread hf4; obtain rfl := harg5.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact harg4.read_unread _
    iexact H4
  iexists _; isplitr
  swap; · iexact H5
  ipureintro
  try sl_unfold_words
  rw [View.read_writes_eq_canon _ _ _ (fun y => ⟨_, List.mem_cons_self, View.mem_set_unit_zero zeros2 Gen.inb_S4x512_S4x512_0_0 y⟩)]
  rw [View.canon_unit_zero (S := S4x512) zeros2]
  simp only [View.readAt_eq_ld, harg2.read_unread, harg3.read_unread, harg5.read_unread,
    View.ld_unit_zero (S := S4x512x3) zeros3, View.ld_unit_zero (S := S4x512) zeros2]

set_option maxHeartbeats 2000000 in
/-- Last key tile of a query tile: the accumulator is updated and its new contents copied to the output block. -/
theorem run0_last (c : Dev nD) (i : grid0.Coords) (arg2 : Memref sig .tc .vmem S4x512x3 .f32) (harg2 : arg2.IsWhole)
    (arg3 : Memref sig .tc .vmem S4x512x3 .f32) (harg3 : arg3.IsWhole) (arg4 : Memref sig .tc .vmem S4x512 .f32) (harg4 : arg4.IsWhole)
    (arg5 : Memref sig .tc .vmem S4x512 .f32) (harg5 : arg5.IsWhole) (hc0 : ¬reset0 i) (hc1 : emit0 i)
    (p o : Vec F S4x512x3 .f32) (a : Vec F S4x512 .f32) (E : Set ℕ) (K : PUnit → sProp 𝕄) :
    iprop(owns (c : Thread nD τ) arg2 fullShare p ∗ owns (c : Thread nD τ) arg3 fullShare o ∗ (∃ d, owns (c : Thread nD τ) arg4 fullShare d) ∗ owns (c : Thread nD τ) arg5 fullShare a
        ∗ (iprop(owns (c : Thread nD τ) arg2 fullShare p ∗ owns (c : Thread nD τ) arg3 fullShare o ∗ owns (c : Thread nD τ) arg4 fullShare (k0_pay2 p o a)
            ∗ owns (c : Thread nD τ) arg5 fullShare (k0_pay2 p o a)) -∗ K ⟨⟩))
      ⊢ wp frame (wpE (defs₀ (F := F)) Variants.none c none) E (cc0__min_reduce_kernel i arg2 harg2 arg3 harg3 arg4 harg4 arg5 harg5) K := by
  simp only [cc0__min_reduce_kernel_eq_skeleton]; unfold cc0__min_reduce_kernel_skel
  unfold owns
  iintro ⟨⟨%f0, %hf0, H0⟩, ⟨%f1, %hf1, H1⟩, ⟨%d4, %f4, -, H4⟩, ⟨%f5, %hf5, H5⟩, Hk⟩
  obtain rfl := harg2.eq_unread hf0; obtain rfl := harg3.eq_unread hf1; obtain rfl := harg5.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    sl_unfold_words
    rw [View.read_writes_eq_canon _ _ _ (fun y => ⟨_, List.mem_cons_self, View.mem_set_unit_zero zeros2 Gen.inb_S4x512_S4x512_0_0 y⟩)]
    rw [View.canon_unit_zero (S := S4x512) zeros2]
    simp only [View.readAt_eq_ld, harg2.read_unread, harg3.read_unread, harg5.read_unread, View.readCov_unit_zero (S := S4x512) _ zeros2,
      View.ld_unit_zero (S := S4x512x3) zeros3, View.ld_unit_zero (S := S4x512) zeros2]
  iexists _; isplitr
  swap; · iexact H5
  ipureintro
  sl_unfold_words
  rw [View.read_writes_eq_canon _ _ _ (fun y => ⟨_, List.mem_cons_self, View.mem_set_unit_zero zeros2 Gen.inb_S4x512_S4x512_0_0 y⟩)]
  rw [View.canon_unit_zero (S := S4x512) zeros2]
  simp only [View.readAt_eq_ld, harg2.read_unread, harg3.read_unread, harg5.read_unread,
    View.ld_unit_zero (S := S4x512x3) zeros3, View.ld_unit_zero (S := S4x512) zeros2]

end Cert.Kernel.Hand

end
-- ==== Proof.K.Dat0.lean ====
/- The proof data of call 0: what the accumulator holds after each grid point, the region's invariant carrying the
   scratch at that value from point to point, what each staging buffer holds after the body, and the body obligation
   at every point by the three control cases. Stated at a parameter `V`, the buffers' contents when the region is
   entered. -/
import proofs.«144344_j69870527971439_1_alg».proof.Proof.K.Runs0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is not
    fetched its index has not moved since the last fetch and the body left the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The query block and the key block at point `t`, at their literal vector type. -/
abbrev qblk0 (c : Dev nD) (t : Fin cfg0.N) : Vec F S4x512x3 .f32 := iblk0 V c 0 t
abbrev kblk0 (c : Dev nD) (t : Fin cfg0.N) : Vec F S4x512x3 .f32 := iblk0 V c 1 t

/-- THE ACCUMULATION. What the scratch holds after the body at position `n`: one step of the running minimum from +∞ where
    the key-tile coordinate is 0 (the positions ≡ 0 mod 8), else one step from what position `n - 1` left. -/
def accAt0 (c : Dev nD) : (n : ℕ) → n < cfg0.N → Vec F S4x512 .f32
  | 0, hn => k0_pay2 (qblk0 V c ⟨0, hn⟩) (kblk0 V c ⟨0, hn⟩) (k0_pay1 (F := F))
  | n + 1, hn =>
    if (n + 1) % 8 = 0 then k0_pay2 (qblk0 V c ⟨n + 1, hn⟩) (kblk0 V c ⟨n + 1, hn⟩) (k0_pay1 (F := F))
    else k0_pay2 (qblk0 V c ⟨n + 1, hn⟩) (kblk0 V c ⟨n + 1, hn⟩) (accAt0 c n (Nat.lt_of_succ_lt hn))

theorem accAt0_first (c : Dev nD) (t : Fin cfg0.N) (h : t.val % 8 = 0) :
    accAt0 V c t.val t.isLt = k0_pay2 (qblk0 V c t) (kblk0 V c t) (k0_pay1 (F := F)) := by
  obtain ⟨n, hn⟩ := t
  cases n with
  | zero => rfl
  | succ n => exact if_pos h

theorem accAt0_next (c : Dev nD) (t : Fin cfg0.N) (h : ¬t.val % 8 = 0) :
    accAt0 V c t.val t.isLt
      = k0_pay2 (qblk0 V c t) (kblk0 V c t) (accAt0 V c (t.val - 1) (Nat.lt_of_le_of_lt (Nat.sub_le _ _) t.isLt)) := by
  obtain ⟨n, hn⟩ := t
  cases n with
  | zero => exact absurd (Nat.zero_mod _) h
  | succ n => exact if_neg h

/-- The region invariant before position `n`: before the first point the class's (the scratch at anything); afterwards
    the scratch at what the point before left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) acc0 fullShare (accAt0 V c n hn) ∗ others0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) acc0 fullShare (accAt0 V c n hn) ∗ others0 (F := F) c) ∗ (∃ r, prngReg c r)) := rfl
theorem PhiS0_pos (c : Dev nD) (n : ℕ) (h : n ≤ cfg0.N) (hz : n ≠ 0) :
    PhiS0 V c n h = iprop(iprop(owns (c : Thread nD τ) acc0 fullShare (accAt0 V c (n - 1) (by omega)) ∗ others0 (F := F) c) ∗ (∃ r, prngReg c r)) := by
  cases n with
  | zero => exact absurd rfl hz
  | succ n => rfl

/-- The proof data of the pipeline on core `c`: the arrays as the region finds them; after the body at point `t` each
    input's buffer at its block and the output's at the accumulator (which is what it holds where the body writes it);
    the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => accAt0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem Phi0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = accAt0 V c t.val t.isLt := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))
/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t)

set_option maxHeartbeats 4000000 in
/-- The body at any point. The inputs' memrefs hold their blocks; the point's position mod 8 says which of the three
    cases it is in; the invariant hands the body the scratch at what the point before left (at anything at a restart)
    and takes it back at this point's value; off the emitting points the output's buffer is handed back untouched, at
    them it is left at the accumulator's new value. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  have hN : t.val < 64 := lt_of_lt_of_eq t.isLt (show cfg0.N = 64 from N_0)
  by_cases h0 : t.val % 8 = 0
  · -- a restart: the scratch is at anything (the class invariant at the first point, a named value afterwards)
    have h7 : ¬t.val % 8 = 7 := by omega
    have he : ¬emit0 (grid0.coords t) := fun h => h7 ((hemit0 t).mp h)
    rw [Dat.leavesExact_idle (dat0 V c) 2 t (idle0_2 t he) (noFlush0_2 t he), accAt0_first V c t h0]
    by_cases hz : t.val = 0
    · rw [Phi0_castSucc V c t, PhiS0_zero V c _ _ hz]
      iintro ⟨HP, Ho, ⟨%d0, H0⟩, ⟨%d1, H1⟩, ⟨%d2, H2⟩⟩
      ihave HP2 := (PhiA0_open (F := F) c) $$ HP
      icases HP2 with ⟨⟨HS, Hoth⟩, Hg⟩
      iapply (run0_first c (grid0.coords t) _ _ _ _ _ _ _ _ ((hreset0 t).mpr h0) he (qblk0 V c t) (kblk0 V c t) _ Set.univ _)
      isplitl [H0]; · iexact H0
      isplitl [H1]; · iexact H1
      isplitl [H2]; · iexact H2
      isplitl [HS]; · iexact HS
      iintro ⟨H0, H1, H2, HS⟩
      isplitl [HS Hoth Hg]
      · isplitr [Hg]
        · isplitl [HS]; · iexact HS
          iexact Hoth
        iexact Hg
      isplitl [Ho]; · iexact Ho
      isplitl [H0]; · iexact H0
      isplitl [H1]; · iexact H1
      iexists _; iexact H2
    · rw [Phi0_castSucc V c t, PhiS0_pos V c _ _ hz]
      iintro ⟨⟨⟨HS, Hoth⟩, Hg⟩, Ho, ⟨%d0, H0⟩, ⟨%d1, H1⟩, ⟨%d2, H2⟩⟩
      iapply (run0_first c (grid0.coords t) _ _ _ _ _ _ _ _ ((hreset0 t).mpr h0) he (qblk0 V c t) (kblk0 V c t) _ Set.univ _)
      isplitl [H0]; · iexact H0
      isplitl [H1]; · iexact H1
      isplitl [H2]; · iexact H2
      isplitl [HS]; · iexists _; iexact HS
      iintro ⟨H0, H1, H2, HS⟩
      isplitl [HS Hoth Hg]
      · isplitr [Hg]
        · isplitl [HS]; · iexact HS
          iexact Hoth
        iexact Hg
      isplitl [Ho]; · iexact Ho
      isplitl [H0]; · iexact H0
      isplitl [H1]; · iexact H1
      iexists _; iexact H2
  · have hz : t.val ≠ 0 := fun e => h0 (by rw [e])
    have hr : ¬reset0 (grid0.coords t) := fun h => h0 ((hreset0 t).mp h)
    rw [Phi0_castSucc V c t, PhiS0_pos V c _ _ hz, accAt0_next V c t h0]
    by_cases h7 : t.val % 8 = 7
    · -- the last key tile: the output's buffer is left at the accumulator's new value
      have he : emit0 (grid0.coords t) := (hemit0 t).mpr h7
      rw [show (dat0 V c).leavesExact 2 t = owns (c : Thread nD τ) (ms0_2 t) fullShare ((dat0 V c).after 2 t) from by
        unfold Dat.leavesExact; rw [live0_2 t he], after0_2, accAt0_next V c t h0]
      iintro ⟨⟨⟨HS, Hoth⟩, Hg⟩, Ho, ⟨%d0, H0⟩, ⟨%d1, H1⟩, ⟨%d2, H2⟩⟩
      iapply (run0_last c (grid0.coords t) _ _ _ _ _ _ _ _ hr he (qblk0 V c t) (kblk0 V c t) _ Set.univ _)
      isplitl [H0]; · iexact H0
      isplitl [H1]; · iexact H1
      isplitl [H2]; · iexists _; iexact H2
      isplitl [HS]; · iexact HS
      iintro ⟨H0, H1, H2, HS⟩
      isplitl [HS Hoth Hg]
      · isplitr [Hg]
        · isplitl [HS]; · iexact HS
          iexact Hoth
        iexact Hg
      isplitl [Ho]; · iexact Ho
      isplitl [H0]; · iexact H0
      isplitl [H1]; · iexact H1
      iexact H2
    · have he : ¬emit0 (grid0.coords t) := fun h => h7 ((hemit0 t).mp h)
      rw [Dat.leavesExact_idle (dat0 V c) 2 t (idle0_2 t he) (noFlush0_2 t he)]
      iintro ⟨⟨⟨HS, Hoth⟩, Hg⟩, Ho, ⟨%d0, H0⟩, ⟨%d1, H1⟩, ⟨%d2, H2⟩⟩
      iapply (run0_mid c (grid0.coords t) _ _ _ _ _ _ _ _ hr he (qblk0 V c t) (kblk0 V c t) _ _ Set.univ _)
      isplitl [H0]; · iexact H0
      isplitl [H1]; · iexact H1
      isplitl [H2]; · iexact H2
      isplitl [HS]; · iexact HS
      iintro ⟨H0, H1, H2, HS⟩
      isplitl [HS Hoth Hg]
      · isplitr [Hg]
        · isplitl [HS]; · iexact HS
          iexact Hoth
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the scratch's named contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 64 := N_0; omega
  rw [show (dat0 V c).Φ (Fin.last cfg0.N) = PhiS0 V c (Fin.last cfg0.N).val (Nat.le_of_lt_succ (Fin.last cfg0.N).isLt) from rfl,
    PhiS0_pos V c _ _ hne]
  refine .trans ?_ (PhiA0_close (F := F) c)
  iintro ⟨⟨HS, Hoth⟩, Hg⟩
  isplitr [Hg]
  · isplitl [HS]; · iexists _; iexact HS
    iexact Hoth
  iexact Hg

end

end Cert.Kernel.Hand

end
-- ==== Proof.K.Runs1.lean ====
/- The body of call 1 run once, in each of the three control cases the grid meets. With `p` the query block, `o` the
   key block and `a` the accumulator the point before left, the body leaves `step p o a` in the accumulator — the
   elementwise minimum of `a` and the block's row minima of the squared distances (the skeleton's second payload) —,
   starting from the +∞ splat (its first payload) where the key-tile coordinate is 0, and copies the accumulator to
   the output block where it is 7. -/
import proofs.«144344_j69870527971439_1_alg».proof.Proof.K.Conds
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- First key tile of a query tile: the accumulator restarts from +∞; the output block is not touched. -/
theorem run1_first (c : Dev nD) (i : grid1.Coords) (arg2 : Memref sig .tc .vmem S4x512x3 .f32) (harg2 : arg2.IsWhole)
    (arg3 : Memref sig .tc .vmem S4x512x3 .f32) (harg3 : arg3.IsWhole) (arg4 : Memref sig .tc .vmem S4x512 .f32) (harg4 : arg4.IsWhole)
    (arg5 : Memref sig .tc .vmem S4x512 .f32) (harg5 : arg5.IsWhole) (hc0 : reset1 i) (hc1 : ¬emit1 i)
    (p o : Vec F S4x512x3 .f32) (xo : Vec F S4x512 .f32) (E : Set ℕ) (K : PUnit → sProp 𝕄) :
    iprop(owns (c : Thread nD τ) arg2 fullShare p ∗ owns (c : Thread nD τ) arg3 fullShare o ∗ owns (c : Thread nD τ) arg4 fullShare xo ∗ (∃ d, owns (c : Thread nD τ) arg5 fullShare d)
        ∗ (iprop(owns (c : Thread nD τ) arg2 fullShare p ∗ owns (c : Thread nD τ) arg3 fullShare o ∗ owns (c : Thread nD τ) arg4 fullShare xo
            ∗ owns (c : Thread nD τ) arg5 fullShare (k1_pay2 p o (k1_pay1 (F := F)))) -∗ K ⟨⟩))
      ⊢ wp frame (wpE (defs₀ (F := F)) Variants.none c none) E (cc1__min_reduce_kernel i arg2 harg2 arg3 harg3 arg4 harg4 arg5 harg5) K := by
  simp only [cc1__min_reduce_kernel_eq_skeleton]; unfold cc1__min_reduce_kernel_skel
  unfold owns
  iintro ⟨⟨%f0, %hf0, H0⟩, ⟨%f1, %hf1, H1⟩, ⟨%f4, %hf4, H4⟩, ⟨%d5, %f5, -, H5⟩, Hk⟩
  obtain rfl := harg2.eq_unread hf0; obtain rfl := harg3.eq_unread hf1; obtain rfl := harg4.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact harg4.read_unread _
    iexact H4
  iexists _; isplitr
  swap; · iexact H5
  ipureintro
  sl_unfold_words
  rw [View.read_writes_eq_canon _ _ _ (fun y => ⟨_, List.mem_cons_self, View.mem_set_unit_zero zeros2 Gen.inb_S4x512_S4x512_0_0 y⟩)]
  rw [View.canon_cons_unit_zero (S := S4x512) zeros2]
  simp only [View.readAt_eq_ld, harg2.read_unread, harg3.read_unread, View.readCov_unit_zero (S := S4x512) _ zeros2,
    View.ld_unit_zero (S := S4x512x3) zeros3, View.ld_unit_zero (S := S4x512) zeros2]

set_option maxHeartbeats 2000000 in
/-- A middle key tile: the accumulator is updated in place; the output block is not touched. -/
theorem run1_mid (c : Dev nD) (i : grid1.Coords) (arg2 : Memref sig .tc .vmem S4x512x3 .f32) (harg2 : arg2.IsWhole)
    (arg3 : Memref sig .tc .vmem S4x512x3 .f32) (harg3 : arg3.IsWhole) (arg4 : Memref sig .tc .vmem S4x512 .f32) (harg4 : arg4.IsWhole)
    (arg5 : Memref sig .tc .vmem S4x512 .f32) (harg5 : arg5.IsWhole) (hc0 : ¬reset1 i) (hc1 : ¬emit1 i)
    (p o : Vec F S4x512x3 .f32) (xo a : Vec F S4x512 .f32) (E : Set ℕ) (K : PUnit → sProp 𝕄) :
    iprop(owns (c : Thread nD τ) arg2 fullShare p ∗ owns (c : Thread nD τ) arg3 fullShare o ∗ owns (c : Thread nD τ) arg4 fullShare xo ∗ owns (c : Thread nD τ) arg5 fullShare a
        ∗ (iprop(owns (c : Thread nD τ) arg2 fullShare p ∗ owns (c : Thread nD τ) arg3 fullShare o ∗ owns (c : Thread nD τ) arg4 fullShare xo
            ∗ owns (c : Thread nD τ) arg5 fullShare (k1_pay2 p o a)) -∗ K ⟨⟩))
      ⊢ wp frame (wpE (defs₀ (F := F)) Variants.none c none) E (cc1__min_reduce_kernel i arg2 harg2 arg3 harg3 arg4 harg4 arg5 harg5) K := by
  simp only [cc1__min_reduce_kernel_eq_skeleton]; unfold cc1__min_reduce_kernel_skel
  unfold owns
  iintro ⟨⟨%f0, %hf0, H0⟩, ⟨%f1, %hf1, H1⟩, ⟨%f4, %hf4, H4⟩, ⟨%f5, %hf5, H5⟩, Hk⟩
  obtain rfl := harg2.eq_unread hf0; obtain rfl := harg3.eq_unread hf1
  obtain rfl := harg4.eq_unread hf4; obtain rfl := harg5.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact harg4.read_unread _
    iexact H4
  iexists _; isplitr
  swap; · iexact H5
  ipureintro
  try sl_unfold_words
  rw [View.read_writes_eq_canon _ _ _ (fun y => ⟨_, List.mem_cons_self, View.mem_set_unit_zero zeros2 Gen.inb_S4x512_S4x512_0_0 y⟩)]
  rw [View.canon_unit_zero (S := S4x512) zeros2]
  simp only [View.readAt_eq_ld, harg2.read_unread, harg3.read_unread, harg5.read_unread,
    View.ld_unit_zero (S := S4x512x3) zeros3, View.ld_unit_zero (S := S4x512) zeros2]

set_option maxHeartbeats 2000000 in
/-- Last key tile of a query tile: the accumulator is updated and its new contents copied to the output block. -/
theorem run1_last (c : Dev nD) (i : grid1.Coords) (arg2 : Memref sig .tc .vmem S4x512x3 .f32) (harg2 : arg2.IsWhole)
    (arg3 : Memref sig .tc .vmem S4x512x3 .f32) (harg3 : arg3.IsWhole) (arg4 : Memref sig .tc .vmem S4x512 .f32) (harg4 : arg4.IsWhole)
    (arg5 : Memref sig .tc .vmem S4x512 .f32) (harg5 : arg5.IsWhole) (hc0 : ¬reset1 i) (hc1 : emit1 i)
    (p o : Vec F S4x512x3 .f32) (a : Vec F S4x512 .f32) (E : Set ℕ) (K : PUnit → sProp 𝕄) :
    iprop(owns (c : Thread nD τ) arg2 fullShare p ∗ owns (c : Thread nD τ) arg3 fullShare o ∗ (∃ d, owns (c : Thread nD τ) arg4 fullShare d) ∗ owns (c : Thread nD τ) arg5 fullShare a
        ∗ (iprop(owns (c : Thread nD τ) arg2 fullShare p ∗ owns (c : Thread nD τ) arg3 fullShare o ∗ owns (c : Thread nD τ) arg4 fullShare (k1_pay2 p o a)
            ∗ owns (c : Thread nD τ) arg5 fullShare (k1_pay2 p o a)) -∗ K ⟨⟩))
      ⊢ wp frame (wpE (defs₀ (F := F)) Variants.none c none) E (cc1__min_reduce_kernel i arg2 harg2 arg3 harg3 arg4 harg4 arg5 harg5) K := by
  simp only [cc1__min_reduce_kernel_eq_skeleton]; unfold cc1__min_reduce_kernel_skel
  unfold owns
  iintro ⟨⟨%f0, %hf0, H0⟩, ⟨%f1, %hf1, H1⟩, ⟨%d4, %f4, -, H4⟩, ⟨%f5, %hf5, H5⟩, Hk⟩
  obtain rfl := harg2.eq_unread hf0; obtain rfl := harg3.eq_unread hf1; obtain rfl := harg5.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    sl_unfold_words
    rw [View.read_writes_eq_canon _ _ _ (fun y => ⟨_, List.mem_cons_self, View.mem_set_unit_zero zeros2 Gen.inb_S4x512_S4x512_0_0 y⟩)]
    rw [View.canon_unit_zero (S := S4x512) zeros2]
    simp only [View.readAt_eq_ld, harg2.read_unread, harg3.read_unread, harg5.read_unread, View.readCov_unit_zero (S := S4x512) _ zeros2,
      View.ld_unit_zero (S := S4x512x3) zeros3, View.ld_unit_zero (S := S4x512) zeros2]
  iexists _; isplitr
  swap; · iexact H5
  ipureintro
  sl_unfold_words
  rw [View.read_writes_eq_canon _ _ _ (fun y => ⟨_, List.mem_cons_self, View.mem_set_unit_zero zeros2 Gen.inb_S4x512_S4x512_0_0 y⟩)]
  rw [View.canon_unit_zero (S := S4x512) zeros2]
  simp only [View.readAt_eq_ld, harg2.read_unread, harg3.read_unread, harg5.read_unread,
    View.ld_unit_zero (S := S4x512x3) zeros3, View.ld_unit_zero (S := S4x512) zeros2]

end Cert.Kernel.Hand

end
-- ==== Proof.K.Dat1.lean ====
/- The proof data of call 1: what the accumulator holds after each grid point, the region's invariant carrying the
   scratch at that value from point to point, what each staging buffer holds after the body, and the body obligation
   at every point by the three control cases. Stated at a parameter `V`, the buffers' contents when the region is
   entered. -/
import proofs.«144344_j69870527971439_1_alg».proof.Proof.K.Runs1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is not
    fetched its index has not moved since the last fetch and the body left the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The query block and the key block at point `t`, at their literal vector type. -/
abbrev qblk1 (c : Dev nD) (t : Fin cfg1.N) : Vec F S4x512x3 .f32 := iblk1 V c 0 t
abbrev kblk1 (c : Dev nD) (t : Fin cfg1.N) : Vec F S4x512x3 .f32 := iblk1 V c 1 t

/-- THE ACCUMULATION. What the scratch holds after the body at position `n`: one step of the running minimum from +∞ where
    the key-tile coordinate is 0 (the positions ≡ 0 mod 8), else one step from what position `n - 1` left. -/
def accAt1 (c : Dev nD) : (n : ℕ) → n < cfg1.N → Vec F S4x512 .f32
  | 0, hn => k1_pay2 (qblk1 V c ⟨0, hn⟩) (kblk1 V c ⟨0, hn⟩) (k1_pay1 (F := F))
  | n + 1, hn =>
    if (n + 1) % 8 = 0 then k1_pay2 (qblk1 V c ⟨n + 1, hn⟩) (kblk1 V c ⟨n + 1, hn⟩) (k1_pay1 (F := F))
    else k1_pay2 (qblk1 V c ⟨n + 1, hn⟩) (kblk1 V c ⟨n + 1, hn⟩) (accAt1 c n (Nat.lt_of_succ_lt hn))

theorem accAt1_first (c : Dev nD) (t : Fin cfg1.N) (h : t.val % 8 = 0) :
    accAt1 V c t.val t.isLt = k1_pay2 (qblk1 V c t) (kblk1 V c t) (k1_pay1 (F := F)) := by
  obtain ⟨n, hn⟩ := t
  cases n with
  | zero => rfl
  | succ n => exact if_pos h

theorem accAt1_next (c : Dev nD) (t : Fin cfg1.N) (h : ¬t.val % 8 = 0) :
    accAt1 V c t.val t.isLt
      = k1_pay2 (qblk1 V c t) (kblk1 V c t) (accAt1 V c (t.val - 1) (Nat.lt_of_le_of_lt (Nat.sub_le _ _) t.isLt)) := by
  obtain ⟨n, hn⟩ := t
  cases n with
  | zero => exact absurd (Nat.zero_mod _) h
  | succ n => exact if_neg h

/-- The region invariant before position `n`: before the first point the class's (the scratch at anything); afterwards
    the scratch at what the point before left, the other scoped buffers at anything, the generator register at some state. -/
def PhiS1 (c : Dev nD) : (n : ℕ) → n ≤ cfg1.N → sProp 𝕄
  | 0, _ => Pipeline.ΦA spec1 c
  | n + 1, hn => iprop(iprop(owns (c : Thread nD τ) acc1 fullShare (accAt1 V c n hn) ∗ others1 (F := F) c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) acc1 fullShare (accAt1 V c n hn) ∗ others1 (F := F) c) ∗ (∃ r, prngReg c r)) := rfl
theorem PhiS1_pos (c : Dev nD) (n : ℕ) (h : n ≤ cfg1.N) (hz : n ≠ 0) :
    PhiS1 V c n h = iprop(iprop(owns (c : Thread nD τ) acc1 fullShare (accAt1 V c (n - 1) (by omega)) ∗ others1 (F := F) c) ∗ (∃ r, prngReg c r)) := by
  cases n with
  | zero => exact absurd rfl hz
  | succ n => rfl

/-- The proof data of the pipeline on core `c`: the arrays as the region finds them; after the body at point `t` each
    input's buffer at its block and the output's at the accumulator (which is what it holds where the body writes it);
    the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem Phi1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt1 V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))
/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t)

set_option maxHeartbeats 4000000 in
/-- The body at any point. The inputs' memrefs hold their blocks; the point's position mod 8 says which of the three
    cases it is in; the invariant hands the body the scratch at what the point before left (at anything at a restart)
    and takes it back at this point's value; off the emitting points the output's buffer is handed back untouched, at
    them it is left at the accumulator's new value. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  have hN : t.val < 64 := lt_of_lt_of_eq t.isLt (show cfg1.N = 64 from N_1)
  by_cases h0 : t.val % 8 = 0
  · -- a restart: the scratch is at anything (the class invariant at the first point, a named value afterwards)
    have h7 : ¬t.val % 8 = 7 := by omega
    have he : ¬emit1 (grid1.coords t) := fun h => h7 ((hemit1 t).mp h)
    rw [Dat.leavesExact_idle (dat1 V c) 2 t (idle1_2 t he) (noFlush1_2 t he), accAt1_first V c t h0]
    by_cases hz : t.val = 0
    · rw [Phi1_castSucc V c t, PhiS1_zero V c _ _ hz]
      iintro ⟨HP, Ho, ⟨%d0, H0⟩, ⟨%d1, H1⟩, ⟨%d2, H2⟩⟩
      ihave HP2 := (PhiA1_open (F := F) c) $$ HP
      icases HP2 with ⟨⟨HS, Hoth⟩, Hg⟩
      iapply (run1_first c (grid1.coords t) _ _ _ _ _ _ _ _ ((hreset1 t).mpr h0) he (qblk1 V c t) (kblk1 V c t) _ Set.univ _)
      isplitl [H0]; · iexact H0
      isplitl [H1]; · iexact H1
      isplitl [H2]; · iexact H2
      isplitl [HS]; · iexact HS
      iintro ⟨H0, H1, H2, HS⟩
      isplitl [HS Hoth Hg]
      · isplitr [Hg]
        · isplitl [HS]; · iexact HS
          iexact Hoth
        iexact Hg
      isplitl [Ho]; · iexact Ho
      isplitl [H0]; · iexact H0
      isplitl [H1]; · iexact H1
      iexists _; iexact H2
    · rw [Phi1_castSucc V c t, PhiS1_pos V c _ _ hz]
      iintro ⟨⟨⟨HS, Hoth⟩, Hg⟩, Ho, ⟨%d0, H0⟩, ⟨%d1, H1⟩, ⟨%d2, H2⟩⟩
      iapply (run1_first c (grid1.coords t) _ _ _ _ _ _ _ _ ((hreset1 t).mpr h0) he (qblk1 V c t) (kblk1 V c t) _ Set.univ _)
      isplitl [H0]; · iexact H0
      isplitl [H1]; · iexact H1
      isplitl [H2]; · iexact H2
      isplitl [HS]; · iexists _; iexact HS
      iintro ⟨H0, H1, H2, HS⟩
      isplitl [HS Hoth Hg]
      · isplitr [Hg]
        · isplitl [HS]; · iexact HS
          iexact Hoth
        iexact Hg
      isplitl [Ho]; · iexact Ho
      isplitl [H0]; · iexact H0
      isplitl [H1]; · iexact H1
      iexists _; iexact H2
  · have hz : t.val ≠ 0 := fun e => h0 (by rw [e])
    have hr : ¬reset1 (grid1.coords t) := fun h => h0 ((hreset1 t).mp h)
    rw [Phi1_castSucc V c t, PhiS1_pos V c _ _ hz, accAt1_next V c t h0]
    by_cases h7 : t.val % 8 = 7
    · -- the last key tile: the output's buffer is left at the accumulator's new value
      have he : emit1 (grid1.coords t) := (hemit1 t).mpr h7
      rw [show (dat1 V c).leavesExact 2 t = owns (c : Thread nD τ) (ms1_2 t) fullShare ((dat1 V c).after 2 t) from by
        unfold Dat.leavesExact; rw [live1_2 t he], after1_2, accAt1_next V c t h0]
      iintro ⟨⟨⟨HS, Hoth⟩, Hg⟩, Ho, ⟨%d0, H0⟩, ⟨%d1, H1⟩, ⟨%d2, H2⟩⟩
      iapply (run1_last c (grid1.coords t) _ _ _ _ _ _ _ _ hr he (qblk1 V c t) (kblk1 V c t) _ Set.univ _)
      isplitl [H0]; · iexact H0
      isplitl [H1]; · iexact H1
      isplitl [H2]; · iexists _; iexact H2
      isplitl [HS]; · iexact HS
      iintro ⟨H0, H1, H2, HS⟩
      isplitl [HS Hoth Hg]
      · isplitr [Hg]
        · isplitl [HS]; · iexact HS
          iexact Hoth
        iexact Hg
      isplitl [Ho]; · iexact Ho
      isplitl [H0]; · iexact H0
      isplitl [H1]; · iexact H1
      iexact H2
    · have he : ¬emit1 (grid1.coords t) := fun h => h7 ((hemit1 t).mp h)
      rw [Dat.leavesExact_idle (dat1 V c) 2 t (idle1_2 t he) (noFlush1_2 t he)]
      iintro ⟨⟨⟨HS, Hoth⟩, Hg⟩, Ho, ⟨%d0, H0⟩, ⟨%d1, H1⟩, ⟨%d2, H2⟩⟩
      iapply (run1_mid c (grid1.coords t) _ _ _ _ _ _ _ _ hr he (qblk1 V c t) (kblk1 V c t) _ _ Set.univ _)
      isplitl [H0]; · iexact H0
      isplitl [H1]; · iexact H1
      isplitl [H2]; · iexact H2
      isplitl [HS]; · iexact HS
      iintro ⟨H0, H1, H2, HS⟩
      isplitl [HS Hoth Hg]
      · isplitr [Hg]
        · isplitl [HS]; · iexact HS
          iexact Hoth
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the scratch's named contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 64 := N_1; omega
  rw [show (dat1 V c).Φ (Fin.last cfg1.N) = PhiS1 V c (Fin.last cfg1.N).val (Nat.le_of_lt_succ (Fin.last cfg1.N).isLt) from rfl,
    PhiS1_pos V c _ _ hne]
  refine .trans ?_ (PhiA1_close (F := F) c)
  iintro ⟨⟨HS, Hoth⟩, Hg⟩
  isplitr [Hg]
  · isplitl [HS]; · iexists _; iexact HS
    iexact Hoth
  iexact Hg

end

end Cert.Kernel.Hand

end
-- ==== Proof.K.Launch.lean ====
/- The run of @main: call 0, call 1, then the host tail.

   The buffers' contents at each boundary are a fold through @main from the launch memory: a call leaves its arrays at
   what its write-backs leave (the two inputs as entered, the output with each written-back block overwritten) and
   every other buffer as entered; the tail applies its operations. Every weakly fair execution terminates, and at the
   end the result buffer holds the tail's value of what the two calls left, and the two arguments their launch
   contents. -/
import proofs.«144344_j69870527971439_1_alg».proof.Proof.K.Dat0
import proofs.«144344_j69870527971439_1_alg».proof.Proof.K.Dat1
import proofs.«144344_j69870527971439_1_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch (call 0's entry). -/
abbrev W0 : Dev nD → Valuation τ sig (Elt F) := fun c b => m (c, b)
abbrev E0 : (c : Dev nD) → (b : Ref sig .tc) → Buf (Elt F) ((c : Thread nD τ).loc b) := fun c b => W0 m c b
/-- After call 0 (call 1's entry): its arrays at what the pipeline leaves, every other buffer as entered. -/
def W1 (c : Dev nD) : Valuation τ sig (Elt F) :=
  Pipeline.withArrays spec0 c (W0 m c) fun w => (dat0 (E0 m) c).arrAt w cfg0.N
theorem W1_arr (c : Dev nD) (w : Fin cfg0.W) :
    W1 m c (Proc.devRef .tc (Pipeline.arrRef spec0 w)) = (dat0 (E0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev E1 : (c : Dev nD) → (b : Ref sig .tc) → Buf (Elt F) ((c : Thread nD τ).loc b) := fun c b => W1 m c b
theorem exit0_arr (c : Dev nD) (w : Fin cfg0.W) : (dat0 (E0 m) c).arrAt w cfg0.N = E1 m c (Pipeline.arrRef spec0 w) :=
  (W1_arr m c w).symm
theorem exit0_rest (c : Dev nD) : ∀ b, b ∉ Finset.univ.image (Pipeline.arrRef spec0) → E1 m c b = E0 m c b :=
  fun b hb => W1_of_ne m c b fun w e => hb (Finset.mem_image.mpr ⟨w, Finset.mem_univ _, e⟩)

/-- After call 1 (the tail's entry). -/
def W2 (c : Dev nD) : Valuation τ sig (Elt F) :=
  Pipeline.withArrays spec1 c (W1 m c) fun w => (dat1 (E1 m) c).arrAt w cfg1.N
theorem W2_arr (c : Dev nD) (w : Fin cfg1.W) :
    W2 m c (Proc.devRef .tc (Pipeline.arrRef spec1 w)) = (dat1 (E1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev E2 : (c : Dev nD) → (b : Ref sig .tc) → Buf (Elt F) ((c : Thread nD τ).loc b) := fun c b => W2 m c b
theorem exit1_arr (c : Dev nD) (w : Fin cfg1.W) : (dat1 (E1 m) c).arrAt w cfg1.N = E2 m c (Pipeline.arrRef spec1 w) :=
  (W2_arr m c w).symm
theorem exit1_rest (c : Dev nD) : ∀ b, b ∉ Finset.univ.image (Pipeline.arrRef spec1) → E2 m c b = E1 m c b :=
  fun b hb => W2_of_ne m c b fun w e => hb (Finset.mem_image.mpr ⟨w, Finset.mem_univ _, e⟩)

/-- After the host tail (the end). -/
abbrev W3 : Dev nD → Valuation τ sig (Elt F) := fun c => StableHlo.after hostOps2 (W2 m c)

/-- After call 0 each argument is as launched: it is one of the call's INPUT arrays, which no write-back touches. -/
theorem W1_main_arg0 (c : Dev nD) : W1 m c (Proc.devRef .tc main_arg0) = m ((c : Thread nD τ).loc main_arg0) :=
  (W1_arr m c 0).trans (((dat0 (E0 m) c).arrAt_in 0 rfl _).trans (A_eq0 (E0 m) c 0))
theorem W1_main_arg1 (c : Dev nD) : W1 m c (Proc.devRef .tc main_arg1) = m ((c : Thread nD τ).loc main_arg1) :=
  (W1_arr m c 1).trans (((dat0 (E0 m) c).arrAt_in 1 rfl _).trans (A_eq0 (E0 m) c 1))

/-! ### The arguments end as launched: each is an INPUT array of both calls, and no host operation writes one -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := StableHlo.after_of_writes_sub hostOps2 _ hostOps2_writes (by decide)
    _ = W1 m c (Proc.devRef .tc main_arg0) := (W2_arr m c 1).trans (((dat1 (E1 m) c).arrAt_in 1 rfl _).trans (A_eq1 (E1 m) c 1))
    _ = W0 m c (Proc.devRef .tc main_arg0) := (W1_arr m c 0).trans (((dat0 (E0 m) c).arrAt_in 0 rfl _).trans (A_eq0 (E0 m) c 0))
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := StableHlo.after_of_writes_sub hostOps2 _ hostOps2_writes (by decide)
    _ = W1 m c (Proc.devRef .tc main_arg1) := (W2_arr m c 0).trans (((dat1 (E1 m) c).arrAt_in 0 rfl _).trans (A_eq1 (E1 m) c 0))
    _ = W0 m c (Proc.devRef .tc main_arg1) := (W1_arr m c 1).trans (((dat0 (E0 m) c).arrAt_in 1 rfl _).trans (A_eq0 (E0 m) c 1))
    _ = m ((c : Thread nD τ).loc main_arg1) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m c) ∗ ∃ r, prngReg c r)

set_option backward.isDefEq.respectTransparency.types false in
/-- Call 0 as a segment: entered with every unscoped buffer at the contents before it, left with its arrays at what the
    write-backs leave and every other buffer as entered. Its arrays are split out of the unscoped buffers at entry and
    put back at exit; the generator register goes into the invariant and comes back; nothing is owed; the kernel has no
    semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (E0 m) c)
    unfold Pipeline.ΦA
    iintro ⟨Hp, -, Hr⟩
    isplitl [Hr]; · iexact Hr
    iexact Hp
  hout c := by
    refine (hout0 (E0 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment: entered with every unscoped buffer at the contents before it, left with its arrays at what the
    write-backs leave and every other buffer as entered. Its arrays are split out of the unscoped buffers at entry and
    put back at exit; the generator register goes into the invariant and comes back; nothing is owed; the kernel has no
    semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (E1 m) c)
    unfold Pipeline.ΦA
    iintro ⟨Hp, -, Hr⟩
    isplitl [Hr]; · iexact Hr
    iexact Hp
  hout c := by
    refine (hout1 (E1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The host tail as a segment. -/
abbrev tailSeg : Pipeline.HostSeg (Name := ℕ) (U := UR sig nD τ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W2 m) R

/-! ## @main as segments, and the launch -/

abbrev items : List (Pipeline.Seg (pcfgs (F := F)) adm (pdats m) () defs₀ 𝒱₀ L lv) :=
  [ .region (reg0 m), .region (reg1 m), .host (tailSeg m) ]
theorem main_run (c : Dev nD) : main (F := F) c = Pipeline.Seg.run (items m) := (main_chain c).trans (by chain_rfl)

set_option backward.isDefEq.respectTransparency.types false in
/-- THE RUN, at any instance: from any memory with zero counters every weakly fair execution of @main terminates,
    nothing faulting, and every final state has the result buffer at the last valuation's value and the two
    argument arrays as launched. -/
theorem run_main : θ_run defs (onTc (τ := τ) (main (F := F))) ⟨m, fun _ => 0, ρ⟩ (fun r => ∀ c : Dev nD,
      r.2.mem ((c.tc : Thread nD τ).loc main_v13) = W3 m c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m) () cellOf_inj emb₁ defs₀ 𝒱₀ L lv m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show iprop(StableHlo.held (c : Thread nD τ) (Pipeline.ucRefs τ sig) (StableHlo.after hostOps2 (W2 m c)) ∗ R c)
        ⊢ iprop(Tₙ m c ∗ ∃ W, owes (c : Thread nD τ) (0 : CellTallies nD τ sig Unit) W)
      iintro ⟨Hh, Hp, Ho⟩
      isplitr [Ho]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨h c _ (mem_uc main_v13 (by decide)),
       (h c _ (mem_uc main_arg0 (by decide))).trans (W3_main_arg0 m c),
       (h c _ (mem_uc main_arg1 (by decide))).trans (W3_main_arg1 m c)⟩)

end Cert.Kernel.Hand

end
-- ==== Proof.KI.Conds.lean ====
/- Where the body's two conditionals are taken on the 8 × 8 grid of each of the two calls, and where each call's
   output window is idle: the accumulator over key tiles is reset at the first key tile of a query tile and written
   out at the last one. -/
import proofs.«144344_j69870527971439_1_alg».proof.Proof.Gen.KernelIdeal.Launch
import proofs.«144344_j69870527971439_1_alg».proof.Proof.Gen.KernelIdeal.Skeleton
import proofs.«144344_j69870527971439_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The zero offsets of a whole-buffer access, as the constant function (rank 2 and rank 3). -/
theorem zeros2 : (![0, 0] : Fin 2 → Nat) = fun _ => 0 := funext fun a => by fin_cases a <;> rfl
theorem zeros3 : (![0, 0, 0] : Fin 3 → Nat) = fun _ => 0 := funext fun a => by fin_cases a <;> rfl

/-! ## Region 0: where the two branches of the body are taken, and where the output window is idle -/

/-- The first branch (the accumulator is reset to +∞) is guarded by "the key-tile coordinate is 0". -/
abbrev reset0 (i : grid0.Coords) : Prop :=
  (Scalar.cmpi .ne (Scalar.extui (Scalar.cmpi .eq (BitVec.ofNat 32 (i 1).val) 0#32)) 0#32) = 1#1
/-- On the 8 × 8 grid, walked row-major, that is the points ≡ 0 (mod 8). -/
theorem hreset0 : ∀ t : Fin cfg0.N, reset0 (grid0.coords t) ↔ t.val % 8 = 0 :=
  (by decide +kernel : ∀ t : Fin grid0.N, reset0 (grid0.coords t) ↔ t.val % 8 = 0)

/-- The second branch (the accumulator is copied to the output block) is guarded by "the key-tile coordinate is 7". -/
abbrev emit0 (i : grid0.Coords) : Prop := k0_cond2 i = 1#1
/-- That is the points ≡ 7 (mod 8): the last key tile of each query tile. -/
theorem hemit0 : ∀ t : Fin cfg0.N, emit0 (grid0.coords t) ↔ t.val % 8 = 7 :=
  (by decide +kernel : ∀ t : Fin grid0.N, emit0 (grid0.coords t) ↔ t.val % 8 = 7)

/-- The two input windows are never idle. -/
theorem live0_0 : ∀ t : Fin cfg0.N, cfg0.idle 0 (grid0.coords t) = false := by decide +kernel
theorem live0_1 : ∀ t : Fin cfg0.N, cfg0.idle 1 (grid0.coords t) = false := by decide +kernel
/-- The output window is idle exactly off the emitting points, and is not written back there. -/
theorem idle0_2 : ∀ t : Fin cfg0.N, ¬emit0 (grid0.coords t) → cfg0.idle 2 (grid0.coords t) = true := by decide +kernel
theorem noFlush0_2 : ∀ t : Fin cfg0.N, ¬emit0 (grid0.coords t) → (cfg0.win 2).flush t = false := by decide +kernel
theorem live0_2 : ∀ t : Fin cfg0.N, emit0 (grid0.coords t) → cfg0.idle 2 (grid0.coords t) = false := by decide +kernel

/-- The staging memrefs the body is called with at point `t`, and the scratch accumulator. -/
abbrev ms0_0 (t : Fin cfg0.N) : Memref sig .tc .vmem S4x512x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x512x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x512 .f32 := win0_2.stage (cfg0.slots t 2)
abbrev hs0_2 (t : Fin cfg0.N) : (ms0_2 t).IsWhole := hstage0_2 ((cfg0.slots t 2).cast nbuf0_2)
abbrev acc0 : Memref sig .tc .vmem S4x512 .f32 := Memref.whole cc0_scratch0

/-! ## Region 1: where the two branches of the body are taken, and where the output window is idle -/

/-- The first branch (the accumulator is reset to +∞) is guarded by "the key-tile coordinate is 0". -/
abbrev reset1 (i : grid1.Coords) : Prop :=
  (Scalar.cmpi .ne (Scalar.extui (Scalar.cmpi .eq (BitVec.ofNat 32 (i 1).val) 0#32)) 0#32) = 1#1
/-- On the 8 × 8 grid, walked row-major, that is the points ≡ 0 (mod 8). -/
theorem hreset1 : ∀ t : Fin cfg1.N, reset1 (grid1.coords t) ↔ t.val % 8 = 0 :=
  (by decide +kernel : ∀ t : Fin grid1.N, reset1 (grid1.coords t) ↔ t.val % 8 = 0)

/-- The second branch (the accumulator is copied to the output block) is guarded by "the key-tile coordinate is 7". -/
abbrev emit1 (i : grid1.Coords) : Prop := k1_cond2 i = 1#1
/-- That is the points ≡ 7 (mod 8): the last key tile of each query tile. -/
theorem hemit1 : ∀ t : Fin cfg1.N, emit1 (grid1.coords t) ↔ t.val % 8 = 7 :=
  (by decide +kernel : ∀ t : Fin grid1.N, emit1 (grid1.coords t) ↔ t.val % 8 = 7)

/-- The two input windows are never idle. -/
theorem live1_0 : ∀ t : Fin cfg1.N, cfg1.idle 0 (grid1.coords t) = false := by decide +kernel
theorem live1_1 : ∀ t : Fin cfg1.N, cfg1.idle 1 (grid1.coords t) = false := by decide +kernel
/-- The output window is idle exactly off the emitting points, and is not written back there. -/
theorem idle1_2 : ∀ t : Fin cfg1.N, ¬emit1 (grid1.coords t) → cfg1.idle 2 (grid1.coords t) = true := by decide +kernel
theorem noFlush1_2 : ∀ t : Fin cfg1.N, ¬emit1 (grid1.coords t) → (cfg1.win 2).flush t = false := by decide +kernel
theorem live1_2 : ∀ t : Fin cfg1.N, emit1 (grid1.coords t) → cfg1.idle 2 (grid1.coords t) = false := by decide +kernel

/-- The staging memrefs the body is called with at point `t`, and the scratch accumulator. -/
abbrev ms1_0 (t : Fin cfg1.N) : Memref sig .tc .vmem S4x512x3 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4x512x3 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x512 .f32 := win1_2.stage (cfg1.slots t 2)
abbrev hs1_2 (t : Fin cfg1.N) : (ms1_2 t).IsWhole := hstage1_2 ((cfg1.slots t 2).cast nbuf1_2)
abbrev acc1 : Memref sig .tc .vmem S4x512 .f32 := Memref.whole cc1_scratch0

/-! ## The class invariant with each call's scratch singled out

Between grid points a region's invariant is the core's scoped buffers that no window of the region stages — this call's
scratch accumulator, and the OTHER call's staging buffers and scratch — each at some contents, beside the generator
register. The two lemmas per region pull this call's scratch to the front and put it back. -/

local notation "𝕄" => MT nD τ sig Unit (Elt F) ℕ (UR sig nD τ) ℕ

/-- Call 0's view of the other scoped buffers: call 1's staging buffers and scratch, each at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))
/-- Call 1's view of the other scoped buffers: call 0's staging buffers and scratch, each at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

theorem PhiA0_open (c : Dev nD) : (Pipeline.ΦA spec0 c : sProp 𝕄)
    ⊢ iprop(iprop((∃ d, owns (c : Thread nD τ) acc0 fullShare d) ∗ others0 (F := F) c) ∗ (∃ r, prngReg c r)) := by
  unfold Pipeline.ΦA; rw [scopedRest0_eq]; unfold others0; simp only [acc0, owns_whole]; exact .rfl
theorem PhiA0_close (c : Dev nD) : iprop(iprop((∃ d, owns (c : Thread nD τ) acc0 fullShare d) ∗ others0 (F := F) c) ∗ (∃ r, prngReg c r))
    ⊢ (Pipeline.ΦA spec0 c : sProp 𝕄) := by
  unfold Pipeline.ΦA; rw [scopedRest0_eq]; unfold others0; simp only [acc0, owns_whole]; exact .rfl

theorem PhiA1_open (c : Dev nD) : (Pipeline.ΦA spec1 c : sProp 𝕄)
    ⊢ iprop(iprop((∃ d, owns (c : Thread nD τ) acc1 fullShare d) ∗ others1 (F := F) c) ∗ (∃ r, prngReg c r)) := by
  unfold Pipeline.ΦA; rw [scopedRest1_eq]; unfold others1; simp only [acc1, owns_whole]
  iintro ⟨⟨H1, H2, H3, H4, H5, H6, H7, HS⟩, Hg⟩
  isplitr [Hg]
  · isplitl [HS]; · iexact HS
    isplitl [H1]; · iexact H1
    isplitl [H2]; · iexact H2
    isplitl [H3]; · iexact H3
    isplitl [H4]; · iexact H4
    isplitl [H5]; · iexact H5
    isplitl [H6]; · iexact H6
    iexact H7
  iexact Hg
theorem PhiA1_close (c : Dev nD) : iprop(iprop((∃ d, owns (c : Thread nD τ) acc1 fullShare d) ∗ others1 (F := F) c) ∗ (∃ r, prngReg c r))
    ⊢ (Pipeline.ΦA spec1 c : sProp 𝕄) := by
  unfold Pipeline.ΦA; rw [scopedRest1_eq]; unfold others1; simp only [acc1, owns_whole]
  iintro ⟨⟨HS, H1, H2, H3, H4, H5, H6, H7⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact HS
  iexact Hg

end Cert.KernelIdeal.Hand

end
-- ==== Proof.KI.Runs0.lean ====
/- The body of call 0 run once, in each of the three control cases the grid meets. With `p` the query block, `o` the
   key block and `a` the accumulator the point before left, the body leaves `step p o a` in the accumulator — the
   elementwise minimum of `a` and the block's row minima of the squared distances (the skeleton's second payload) —,
   starting from the +∞ splat (its first payload) where the key-tile coordinate is 0, and copies the accumulator to
   the output block where it is 7. -/
import proofs.«144344_j69870527971439_1_alg».proof.Proof.KI.Conds
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- First key tile of a query tile: the accumulator restarts from +∞; the output block is not touched. -/
theorem run0_first (c : Dev nD) (i : grid0.Coords) (arg2 : Memref sig .tc .vmem S4x512x3 .f32) (harg2 : arg2.IsWhole)
    (arg3 : Memref sig .tc .vmem S4x512x3 .f32) (harg3 : arg3.IsWhole) (arg4 : Memref sig .tc .vmem S4x512 .f32) (harg4 : arg4.IsWhole)
    (arg5 : Memref sig .tc .vmem S4x512 .f32) (harg5 : arg5.IsWhole) (hc0 : reset0 i) (hc1 : ¬emit0 i)
    (p o : Vec F S4x512x3 .f32) (xo : Vec F S4x512 .f32) (E : Set ℕ) (K : PUnit → sProp 𝕄) :
    iprop(owns (c : Thread nD τ) arg2 fullShare p ∗ owns (c : Thread nD τ) arg3 fullShare o ∗ owns (c : Thread nD τ) arg4 fullShare xo ∗ (∃ d, owns (c : Thread nD τ) arg5 fullShare d)
        ∗ (iprop(owns (c : Thread nD τ) arg2 fullShare p ∗ owns (c : Thread nD τ) arg3 fullShare o ∗ owns (c : Thread nD τ) arg4 fullShare xo
            ∗ owns (c : Thread nD τ) arg5 fullShare (k0_pay2 p o (k0_pay1 (F := F)))) -∗ K ⟨⟩))
      ⊢ wp frame (wpE (defs₀ (F := F)) Variants.none c none) E (cc0__min_reduce_kernel i arg2 harg2 arg3 harg3 arg4 harg4 arg5 harg5) K := by
  simp only [cc0__min_reduce_kernel_eq_skeleton]; unfold cc0__min_reduce_kernel_skel
  unfold owns
  iintro ⟨⟨%f0, %hf0, H0⟩, ⟨%f1, %hf1, H1⟩, ⟨%f4, %hf4, H4⟩, ⟨%d5, %f5, -, H5⟩, Hk⟩
  obtain rfl := harg2.eq_unread hf0; obtain rfl := harg3.eq_unread hf1; obtain rfl := harg4.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact harg4.read_unread _
    iexact H4
  iexists _; isplitr
  swap; · iexact H5
  ipureintro
  sl_unfold_words
  rw [View.read_writes_eq_canon _ _ _ (fun y => ⟨_, List.mem_cons_self, View.mem_set_unit_zero zeros2 Gen.inb_S4x512_S4x512_0_0 y⟩)]
  rw [View.canon_cons_unit_zero (S := S4x512) zeros2]
  simp only [View.readAt_eq_ld, harg2.read_unread, harg3.read_unread, View.readCov_unit_zero (S := S4x512) _ zeros2,
    View.ld_unit_zero (S := S4x512x3) zeros3, View.ld_unit_zero (S := S4x512) zeros2]

set_option maxHeartbeats 2000000 in
/-- A middle key tile: the accumulator is updated in place; the output block is not touched. -/
theorem run0_mid (c : Dev nD) (i : grid0.Coords) (arg2 : Memref sig .tc .vmem S4x512x3 .f32) (harg2 : arg2.IsWhole)
    (arg3 : Memref sig .tc .vmem S4x512x3 .f32) (harg3 : arg3.IsWhole) (arg4 : Memref sig .tc .vmem S4x512 .f32) (harg4 : arg4.IsWhole)
    (arg5 : Memref sig .tc .vmem S4x512 .f32) (harg5 : arg5.IsWhole) (hc0 : ¬reset0 i) (hc1 : ¬emit0 i)
    (p o : Vec F S4x512x3 .f32) (xo a : Vec F S4x512 .f32) (E : Set ℕ) (K : PUnit → sProp 𝕄) :
    iprop(owns (c : Thread nD τ) arg2 fullShare p ∗ owns (c : Thread nD τ) arg3 fullShare o ∗ owns (c : Thread nD τ) arg4 fullShare xo ∗ owns (c : Thread nD τ) arg5 fullShare a
        ∗ (iprop(owns (c : Thread nD τ) arg2 fullShare p ∗ owns (c : Thread nD τ) arg3 fullShare o ∗ owns (c : Thread nD τ) arg4 fullShare xo
            ∗ owns (c : Thread nD τ) arg5 fullShare (k0_pay2 p o a)) -∗ K ⟨⟩))
      ⊢ wp frame (wpE (defs₀ (F := F)) Variants.none c none) E (cc0__min_reduce_kernel i arg2 harg2 arg3 harg3 arg4 harg4 arg5 harg5) K := by
  simp only [cc0__min_reduce_kernel_eq_skeleton]; unfold cc0__min_reduce_kernel_skel
  unfold owns
  iintro ⟨⟨%f0, %hf0, H0⟩, ⟨%f1, %hf1, H1⟩, ⟨%f4, %hf4, H4⟩, ⟨%f5, %hf5, H5⟩, Hk⟩
  obtain rfl := harg2.eq_unread hf0; obtain rfl := harg3.eq_unread hf1
  obtain rfl := harg4.eq_unread hf4; obtain rfl := harg5.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact harg4.read_unread _
    iexact H4
  iexists _; isplitr
  swap; · iexact H5
  ipureintro
  try sl_unfold_words
  rw [View.read_writes_eq_canon _ _ _ (fun y => ⟨_, List.mem_cons_self, View.mem_set_unit_zero zeros2 Gen.inb_S4x512_S4x512_0_0 y⟩)]
  rw [View.canon_unit_zero (S := S4x512) zeros2]
  simp only [View.readAt_eq_ld, harg2.read_unread, harg3.read_unread, harg5.read_unread,
    View.ld_unit_zero (S := S4x512x3) zeros3, View.ld_unit_zero (S := S4x512) zeros2]

set_option maxHeartbeats 2000000 in
/-- Last key tile of a query tile: the accumulator is updated and its new contents copied to the output block. -/
theorem run0_last (c : Dev nD) (i : grid0.Coords) (arg2 : Memref sig .tc .vmem S4x512x3 .f32) (harg2 : arg2.IsWhole)
    (arg3 : Memref sig .tc .vmem S4x512x3 .f32) (harg3 : arg3.IsWhole) (arg4 : Memref sig .tc .vmem S4x512 .f32) (harg4 : arg4.IsWhole)
    (arg5 : Memref sig .tc .vmem S4x512 .f32) (harg5 : arg5.IsWhole) (hc0 : ¬reset0 i) (hc1 : emit0 i)
    (p o : Vec F S4x512x3 .f32) (a : Vec F S4x512 .f32) (E : Set ℕ) (K : PUnit → sProp 𝕄) :
    iprop(owns (c : Thread nD τ) arg2 fullShare p ∗ owns (c : Thread nD τ) arg3 fullShare o ∗ (∃ d, owns (c : Thread nD τ) arg4 fullShare d) ∗ owns (c : Thread nD τ) arg5 fullShare a
        ∗ (iprop(owns (c : Thread nD τ) arg2 fullShare p ∗ owns (c : Thread nD τ) arg3 fullShare o ∗ owns (c : Thread nD τ) arg4 fullShare (k0_pay2 p o a)
            ∗ owns (c : Thread nD τ) arg5 fullShare (k0_pay2 p o a)) -∗ K ⟨⟩))
      ⊢ wp frame (wpE (defs₀ (F := F)) Variants.none c none) E (cc0__min_reduce_kernel i arg2 harg2 arg3 harg3 arg4 harg4 arg5 harg5) K := by
  simp only [cc0__min_reduce_kernel_eq_skeleton]; unfold cc0__min_reduce_kernel_skel
  unfold owns
  iintro ⟨⟨%f0, %hf0, H0⟩, ⟨%f1, %hf1, H1⟩, ⟨%d4, %f4, -, H4⟩, ⟨%f5, %hf5, H5⟩, Hk⟩
  obtain rfl := harg2.eq_unread hf0; obtain rfl := harg3.eq_unread hf1; obtain rfl := harg5.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    sl_unfold_words
    rw [View.read_writes_eq_canon _ _ _ (fun y => ⟨_, List.mem_cons_self, View.mem_set_unit_zero zeros2 Gen.inb_S4x512_S4x512_0_0 y⟩)]
    rw [View.canon_unit_zero (S := S4x512) zeros2]
    simp only [View.readAt_eq_ld, harg2.read_unread, harg3.read_unread, harg5.read_unread, View.readCov_unit_zero (S := S4x512) _ zeros2,
      View.ld_unit_zero (S := S4x512x3) zeros3, View.ld_unit_zero (S := S4x512) zeros2]
  iexists _; isplitr
  swap; · iexact H5
  ipureintro
  sl_unfold_words
  rw [View.read_writes_eq_canon _ _ _ (fun y => ⟨_, List.mem_cons_self, View.mem_set_unit_zero zeros2 Gen.inb_S4x512_S4x512_0_0 y⟩)]
  rw [View.canon_unit_zero (S := S4x512) zeros2]
  simp only [View.readAt_eq_ld, harg2.read_unread, harg3.read_unread, harg5.read_unread,
    View.ld_unit_zero (S := S4x512x3) zeros3, View.ld_unit_zero (S := S4x512) zeros2]

end Cert.KernelIdeal.Hand

end
-- ==== Proof.KI.Dat0.lean ====
/- The proof data of call 0: what the accumulator holds after each grid point, the region's invariant carrying the
   scratch at that value from point to point, what each staging buffer holds after the body, and the body obligation
   at every point by the three control cases. Stated at a parameter `V`, the buffers' contents when the region is
   entered. -/
import proofs.«144344_j69870527971439_1_alg».proof.Proof.KI.Runs0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is not
    fetched its index has not moved since the last fetch and the body left the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The query block and the key block at point `t`, at their literal vector type. -/
abbrev qblk0 (c : Dev nD) (t : Fin cfg0.N) : Vec F S4x512x3 .f32 := iblk0 V c 0 t
abbrev kblk0 (c : Dev nD) (t : Fin cfg0.N) : Vec F S4x512x3 .f32 := iblk0 V c 1 t

/-- THE ACCUMULATION. What the scratch holds after the body at position `n`: one step of the running minimum from +∞ where
    the key-tile coordinate is 0 (the positions ≡ 0 mod 8), else one step from what position `n - 1` left. -/
def accAt0 (c : Dev nD) : (n : ℕ) → n < cfg0.N → Vec F S4x512 .f32
  | 0, hn => k0_pay2 (qblk0 V c ⟨0, hn⟩) (kblk0 V c ⟨0, hn⟩) (k0_pay1 (F := F))
  | n + 1, hn =>
    if (n + 1) % 8 = 0 then k0_pay2 (qblk0 V c ⟨n + 1, hn⟩) (kblk0 V c ⟨n + 1, hn⟩) (k0_pay1 (F := F))
    else k0_pay2 (qblk0 V c ⟨n + 1, hn⟩) (kblk0 V c ⟨n + 1, hn⟩) (accAt0 c n (Nat.lt_of_succ_lt hn))

theorem accAt0_first (c : Dev nD) (t : Fin cfg0.N) (h : t.val % 8 = 0) :
    accAt0 V c t.val t.isLt = k0_pay2 (qblk0 V c t) (kblk0 V c t) (k0_pay1 (F := F)) := by
  obtain ⟨n, hn⟩ := t
  cases n with
  | zero => rfl
  | succ n => exact if_pos h

theorem accAt0_next (c : Dev nD) (t : Fin cfg0.N) (h : ¬t.val % 8 = 0) :
    accAt0 V c t.val t.isLt
      = k0_pay2 (qblk0 V c t) (kblk0 V c t) (accAt0 V c (t.val - 1) (Nat.lt_of_le_of_lt (Nat.sub_le _ _) t.isLt)) := by
  obtain ⟨n, hn⟩ := t
  cases n with
  | zero => exact absurd (Nat.zero_mod _) h
  | succ n => exact if_neg h

/-- The region invariant before position `n`: before the first point the class's (the scratch at anything); afterwards
    the scratch at what the point before left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) acc0 fullShare (accAt0 V c n hn) ∗ others0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) acc0 fullShare (accAt0 V c n hn) ∗ others0 (F := F) c) ∗ (∃ r, prngReg c r)) := rfl
theorem PhiS0_pos (c : Dev nD) (n : ℕ) (h : n ≤ cfg0.N) (hz : n ≠ 0) :
    PhiS0 V c n h = iprop(iprop(owns (c : Thread nD τ) acc0 fullShare (accAt0 V c (n - 1) (by omega)) ∗ others0 (F := F) c) ∗ (∃ r, prngReg c r)) := by
  cases n with
  | zero => exact absurd rfl hz
  | succ n => rfl

/-- The proof data of the pipeline on core `c`: the arrays as the region finds them; after the body at point `t` each
    input's buffer at its block and the output's at the accumulator (which is what it holds where the body writes it);
    the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => accAt0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem Phi0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = accAt0 V c t.val t.isLt := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))
/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t)

set_option maxHeartbeats 4000000 in
/-- The body at any point. The inputs' memrefs hold their blocks; the point's position mod 8 says which of the three
    cases it is in; the invariant hands the body the scratch at what the point before left (at anything at a restart)
    and takes it back at this point's value; off the emitting points the output's buffer is handed back untouched, at
    them it is left at the accumulator's new value. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  have hN : t.val < 64 := lt_of_lt_of_eq t.isLt (show cfg0.N = 64 from N_0)
  by_cases h0 : t.val % 8 = 0
  · -- a restart: the scratch is at anything (the class invariant at the first point, a named value afterwards)
    have h7 : ¬t.val % 8 = 7 := by omega
    have he : ¬emit0 (grid0.coords t) := fun h => h7 ((hemit0 t).mp h)
    rw [Dat.leavesExact_idle (dat0 V c) 2 t (idle0_2 t he) (noFlush0_2 t he), accAt0_first V c t h0]
    by_cases hz : t.val = 0
    · rw [Phi0_castSucc V c t, PhiS0_zero V c _ _ hz]
      iintro ⟨HP, Ho, ⟨%d0, H0⟩, ⟨%d1, H1⟩, ⟨%d2, H2⟩⟩
      ihave HP2 := (PhiA0_open (F := F) c) $$ HP
      icases HP2 with ⟨⟨HS, Hoth⟩, Hg⟩
      iapply (run0_first c (grid0.coords t) _ _ _ _ _ _ _ _ ((hreset0 t).mpr h0) he (qblk0 V c t) (kblk0 V c t) _ Set.univ _)
      isplitl [H0]; · iexact H0
      isplitl [H1]; · iexact H1
      isplitl [H2]; · iexact H2
      isplitl [HS]; · iexact HS
      iintro ⟨H0, H1, H2, HS⟩
      isplitl [HS Hoth Hg]
      · isplitr [Hg]
        · isplitl [HS]; · iexact HS
          iexact Hoth
        iexact Hg
      isplitl [Ho]; · iexact Ho
      isplitl [H0]; · iexact H0
      isplitl [H1]; · iexact H1
      iexists _; iexact H2
    · rw [Phi0_castSucc V c t, PhiS0_pos V c _ _ hz]
      iintro ⟨⟨⟨HS, Hoth⟩, Hg⟩, Ho, ⟨%d0, H0⟩, ⟨%d1, H1⟩, ⟨%d2, H2⟩⟩
      iapply (run0_first c (grid0.coords t) _ _ _ _ _ _ _ _ ((hreset0 t).mpr h0) he (qblk0 V c t) (kblk0 V c t) _ Set.univ _)
      isplitl [H0]; · iexact H0
      isplitl [H1]; · iexact H1
      isplitl [H2]; · iexact H2
      isplitl [HS]; · iexists _; iexact HS
      iintro ⟨H0, H1, H2, HS⟩
      isplitl [HS Hoth Hg]
      · isplitr [Hg]
        · isplitl [HS]; · iexact HS
          iexact Hoth
        iexact Hg
      isplitl [Ho]; · iexact Ho
      isplitl [H0]; · iexact H0
      isplitl [H1]; · iexact H1
      iexists _; iexact H2
  · have hz : t.val ≠ 0 := fun e => h0 (by rw [e])
    have hr : ¬reset0 (grid0.coords t) := fun h => h0 ((hreset0 t).mp h)
    rw [Phi0_castSucc V c t, PhiS0_pos V c _ _ hz, accAt0_next V c t h0]
    by_cases h7 : t.val % 8 = 7
    · -- the last key tile: the output's buffer is left at the accumulator's new value
      have he : emit0 (grid0.coords t) := (hemit0 t).mpr h7
      rw [show (dat0 V c).leavesExact 2 t = owns (c : Thread nD τ) (ms0_2 t) fullShare ((dat0 V c).after 2 t) from by
        unfold Dat.leavesExact; rw [live0_2 t he], after0_2, accAt0_next V c t h0]
      iintro ⟨⟨⟨HS, Hoth⟩, Hg⟩, Ho, ⟨%d0, H0⟩, ⟨%d1, H1⟩, ⟨%d2, H2⟩⟩
      iapply (run0_last c (grid0.coords t) _ _ _ _ _ _ _ _ hr he (qblk0 V c t) (kblk0 V c t) _ Set.univ _)
      isplitl [H0]; · iexact H0
      isplitl [H1]; · iexact H1
      isplitl [H2]; · iexists _; iexact H2
      isplitl [HS]; · iexact HS
      iintro ⟨H0, H1, H2, HS⟩
      isplitl [HS Hoth Hg]
      · isplitr [Hg]
        · isplitl [HS]; · iexact HS
          iexact Hoth
        iexact Hg
      isplitl [Ho]; · iexact Ho
      isplitl [H0]; · iexact H0
      isplitl [H1]; · iexact H1
      iexact H2
    · have he : ¬emit0 (grid0.coords t) := fun h => h7 ((hemit0 t).mp h)
      rw [Dat.leavesExact_idle (dat0 V c) 2 t (idle0_2 t he) (noFlush0_2 t he)]
      iintro ⟨⟨⟨HS, Hoth⟩, Hg⟩, Ho, ⟨%d0, H0⟩, ⟨%d1, H1⟩, ⟨%d2, H2⟩⟩
      iapply (run0_mid c (grid0.coords t) _ _ _ _ _ _ _ _ hr he (qblk0 V c t) (kblk0 V c t) _ _ Set.univ _)
      isplitl [H0]; · iexact H0
      isplitl [H1]; · iexact H1
      isplitl [H2]; · iexact H2
      isplitl [HS]; · iexact HS
      iintro ⟨H0, H1, H2, HS⟩
      isplitl [HS Hoth Hg]
      · isplitr [Hg]
        · isplitl [HS]; · iexact HS
          iexact Hoth
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the scratch's named contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 64 := N_0; omega
  rw [show (dat0 V c).Φ (Fin.last cfg0.N) = PhiS0 V c (Fin.last cfg0.N).val (Nat.le_of_lt_succ (Fin.last cfg0.N).isLt) from rfl,
    PhiS0_pos V c _ _ hne]
  refine .trans ?_ (PhiA0_close (F := F) c)
  iintro ⟨⟨HS, Hoth⟩, Hg⟩
  isplitr [Hg]
  · isplitl [HS]; · iexists _; iexact HS
    iexact Hoth
  iexact Hg

end

end Cert.KernelIdeal.Hand

end
-- ==== Proof.KI.Runs1.lean ====
/- The body of call 1 run once, in each of the three control cases the grid meets. With `p` the query block, `o` the
   key block and `a` the accumulator the point before left, the body leaves `step p o a` in the accumulator — the
   elementwise minimum of `a` and the block's row minima of the squared distances (the skeleton's second payload) —,
   starting from the +∞ splat (its first payload) where the key-tile coordinate is 0, and copies the accumulator to
   the output block where it is 7. -/
import proofs.«144344_j69870527971439_1_alg».proof.Proof.KI.Conds
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- First key tile of a query tile: the accumulator restarts from +∞; the output block is not touched. -/
theorem run1_first (c : Dev nD) (i : grid1.Coords) (arg2 : Memref sig .tc .vmem S4x512x3 .f32) (harg2 : arg2.IsWhole)
    (arg3 : Memref sig .tc .vmem S4x512x3 .f32) (harg3 : arg3.IsWhole) (arg4 : Memref sig .tc .vmem S4x512 .f32) (harg4 : arg4.IsWhole)
    (arg5 : Memref sig .tc .vmem S4x512 .f32) (harg5 : arg5.IsWhole) (hc0 : reset1 i) (hc1 : ¬emit1 i)
    (p o : Vec F S4x512x3 .f32) (xo : Vec F S4x512 .f32) (E : Set ℕ) (K : PUnit → sProp 𝕄) :
    iprop(owns (c : Thread nD τ) arg2 fullShare p ∗ owns (c : Thread nD τ) arg3 fullShare o ∗ owns (c : Thread nD τ) arg4 fullShare xo ∗ (∃ d, owns (c : Thread nD τ) arg5 fullShare d)
        ∗ (iprop(owns (c : Thread nD τ) arg2 fullShare p ∗ owns (c : Thread nD τ) arg3 fullShare o ∗ owns (c : Thread nD τ) arg4 fullShare xo
            ∗ owns (c : Thread nD τ) arg5 fullShare (k1_pay2 p o (k1_pay1 (F := F)))) -∗ K ⟨⟩))
      ⊢ wp frame (wpE (defs₀ (F := F)) Variants.none c none) E (cc1__min_reduce_kernel i arg2 harg2 arg3 harg3 arg4 harg4 arg5 harg5) K := by
  simp only [cc1__min_reduce_kernel_eq_skeleton]; unfold cc1__min_reduce_kernel_skel
  unfold owns
  iintro ⟨⟨%f0, %hf0, H0⟩, ⟨%f1, %hf1, H1⟩, ⟨%f4, %hf4, H4⟩, ⟨%d5, %f5, -, H5⟩, Hk⟩
  obtain rfl := harg2.eq_unread hf0; obtain rfl := harg3.eq_unread hf1; obtain rfl := harg4.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact harg4.read_unread _
    iexact H4
  iexists _; isplitr
  swap; · iexact H5
  ipureintro
  sl_unfold_words
  rw [View.read_writes_eq_canon _ _ _ (fun y => ⟨_, List.mem_cons_self, View.mem_set_unit_zero zeros2 Gen.inb_S4x512_S4x512_0_0 y⟩)]
  rw [View.canon_cons_unit_zero (S := S4x512) zeros2]
  simp only [View.readAt_eq_ld, harg2.read_unread, harg3.read_unread, View.readCov_unit_zero (S := S4x512) _ zeros2,
    View.ld_unit_zero (S := S4x512x3) zeros3, View.ld_unit_zero (S := S4x512) zeros2]

set_option maxHeartbeats 2000000 in
/-- A middle key tile: the accumulator is updated in place; the output block is not touched. -/
theorem run1_mid (c : Dev nD) (i : grid1.Coords) (arg2 : Memref sig .tc .vmem S4x512x3 .f32) (harg2 : arg2.IsWhole)
    (arg3 : Memref sig .tc .vmem S4x512x3 .f32) (harg3 : arg3.IsWhole) (arg4 : Memref sig .tc .vmem S4x512 .f32) (harg4 : arg4.IsWhole)
    (arg5 : Memref sig .tc .vmem S4x512 .f32) (harg5 : arg5.IsWhole) (hc0 : ¬reset1 i) (hc1 : ¬emit1 i)
    (p o : Vec F S4x512x3 .f32) (xo a : Vec F S4x512 .f32) (E : Set ℕ) (K : PUnit → sProp 𝕄) :
    iprop(owns (c : Thread nD τ) arg2 fullShare p ∗ owns (c : Thread nD τ) arg3 fullShare o ∗ owns (c : Thread nD τ) arg4 fullShare xo ∗ owns (c : Thread nD τ) arg5 fullShare a
        ∗ (iprop(owns (c : Thread nD τ) arg2 fullShare p ∗ owns (c : Thread nD τ) arg3 fullShare o ∗ owns (c : Thread nD τ) arg4 fullShare xo
            ∗ owns (c : Thread nD τ) arg5 fullShare (k1_pay2 p o a)) -∗ K ⟨⟩))
      ⊢ wp frame (wpE (defs₀ (F := F)) Variants.none c none) E (cc1__min_reduce_kernel i arg2 harg2 arg3 harg3 arg4 harg4 arg5 harg5) K := by
  simp only [cc1__min_reduce_kernel_eq_skeleton]; unfold cc1__min_reduce_kernel_skel
  unfold owns
  iintro ⟨⟨%f0, %hf0, H0⟩, ⟨%f1, %hf1, H1⟩, ⟨%f4, %hf4, H4⟩, ⟨%f5, %hf5, H5⟩, Hk⟩
  obtain rfl := harg2.eq_unread hf0; obtain rfl := harg3.eq_unread hf1
  obtain rfl := harg4.eq_unread hf4; obtain rfl := harg5.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact harg4.read_unread _
    iexact H4
  iexists _; isplitr
  swap; · iexact H5
  ipureintro
  try sl_unfold_words
  rw [View.read_writes_eq_canon _ _ _ (fun y => ⟨_, List.mem_cons_self, View.mem_set_unit_zero zeros2 Gen.inb_S4x512_S4x512_0_0 y⟩)]
  rw [View.canon_unit_zero (S := S4x512) zeros2]
  simp only [View.readAt_eq_ld, harg2.read_unread, harg3.read_unread, harg5.read_unread,
    View.ld_unit_zero (S := S4x512x3) zeros3, View.ld_unit_zero (S := S4x512) zeros2]

set_option maxHeartbeats 2000000 in
/-- Last key tile of a query tile: the accumulator is updated and its new contents copied to the output block. -/
theorem run1_last (c : Dev nD) (i : grid1.Coords) (arg2 : Memref sig .tc .vmem S4x512x3 .f32) (harg2 : arg2.IsWhole)
    (arg3 : Memref sig .tc .vmem S4x512x3 .f32) (harg3 : arg3.IsWhole) (arg4 : Memref sig .tc .vmem S4x512 .f32) (harg4 : arg4.IsWhole)
    (arg5 : Memref sig .tc .vmem S4x512 .f32) (harg5 : arg5.IsWhole) (hc0 : ¬reset1 i) (hc1 : emit1 i)
    (p o : Vec F S4x512x3 .f32) (a : Vec F S4x512 .f32) (E : Set ℕ) (K : PUnit → sProp 𝕄) :
    iprop(owns (c : Thread nD τ) arg2 fullShare p ∗ owns (c : Thread nD τ) arg3 fullShare o ∗ (∃ d, owns (c : Thread nD τ) arg4 fullShare d) ∗ owns (c : Thread nD τ) arg5 fullShare a
        ∗ (iprop(owns (c : Thread nD τ) arg2 fullShare p ∗ owns (c : Thread nD τ) arg3 fullShare o ∗ owns (c : Thread nD τ) arg4 fullShare (k1_pay2 p o a)
            ∗ owns (c : Thread nD τ) arg5 fullShare (k1_pay2 p o a)) -∗ K ⟨⟩))
      ⊢ wp frame (wpE (defs₀ (F := F)) Variants.none c none) E (cc1__min_reduce_kernel i arg2 harg2 arg3 harg3 arg4 harg4 arg5 harg5) K := by
  simp only [cc1__min_reduce_kernel_eq_skeleton]; unfold cc1__min_reduce_kernel_skel
  unfold owns
  iintro ⟨⟨%f0, %hf0, H0⟩, ⟨%f1, %hf1, H1⟩, ⟨%d4, %f4, -, H4⟩, ⟨%f5, %hf5, H5⟩, Hk⟩
  obtain rfl := harg2.eq_unread hf0; obtain rfl := harg3.eq_unread hf1; obtain rfl := harg5.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    sl_unfold_words
    rw [View.read_writes_eq_canon _ _ _ (fun y => ⟨_, List.mem_cons_self, View.mem_set_unit_zero zeros2 Gen.inb_S4x512_S4x512_0_0 y⟩)]
    rw [View.canon_unit_zero (S := S4x512) zeros2]
    simp only [View.readAt_eq_ld, harg2.read_unread, harg3.read_unread, harg5.read_unread, View.readCov_unit_zero (S := S4x512) _ zeros2,
      View.ld_unit_zero (S := S4x512x3) zeros3, View.ld_unit_zero (S := S4x512) zeros2]
  iexists _; isplitr
  swap; · iexact H5
  ipureintro
  sl_unfold_words
  rw [View.read_writes_eq_canon _ _ _ (fun y => ⟨_, List.mem_cons_self, View.mem_set_unit_zero zeros2 Gen.inb_S4x512_S4x512_0_0 y⟩)]
  rw [View.canon_unit_zero (S := S4x512) zeros2]
  simp only [View.readAt_eq_ld, harg2.read_unread, harg3.read_unread, harg5.read_unread,
    View.ld_unit_zero (S := S4x512x3) zeros3, View.ld_unit_zero (S := S4x512) zeros2]

end Cert.KernelIdeal.Hand

end
-- ==== Proof.KI.Dat1.lean ====
/- The proof data of call 1: what the accumulator holds after each grid point, the region's invariant carrying the
   scratch at that value from point to point, what each staging buffer holds after the body, and the body obligation
   at every point by the three control cases. Stated at a parameter `V`, the buffers' contents when the region is
   entered. -/
import proofs.«144344_j69870527971439_1_alg».proof.Proof.KI.Runs1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is not
    fetched its index has not moved since the last fetch and the body left the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The query block and the key block at point `t`, at their literal vector type. -/
abbrev qblk1 (c : Dev nD) (t : Fin cfg1.N) : Vec F S4x512x3 .f32 := iblk1 V c 0 t
abbrev kblk1 (c : Dev nD) (t : Fin cfg1.N) : Vec F S4x512x3 .f32 := iblk1 V c 1 t

/-- THE ACCUMULATION. What the scratch holds after the body at position `n`: one step of the running minimum from +∞ where
    the key-tile coordinate is 0 (the positions ≡ 0 mod 8), else one step from what position `n - 1` left. -/
def accAt1 (c : Dev nD) : (n : ℕ) → n < cfg1.N → Vec F S4x512 .f32
  | 0, hn => k1_pay2 (qblk1 V c ⟨0, hn⟩) (kblk1 V c ⟨0, hn⟩) (k1_pay1 (F := F))
  | n + 1, hn =>
    if (n + 1) % 8 = 0 then k1_pay2 (qblk1 V c ⟨n + 1, hn⟩) (kblk1 V c ⟨n + 1, hn⟩) (k1_pay1 (F := F))
    else k1_pay2 (qblk1 V c ⟨n + 1, hn⟩) (kblk1 V c ⟨n + 1, hn⟩) (accAt1 c n (Nat.lt_of_succ_lt hn))

theorem accAt1_first (c : Dev nD) (t : Fin cfg1.N) (h : t.val % 8 = 0) :
    accAt1 V c t.val t.isLt = k1_pay2 (qblk1 V c t) (kblk1 V c t) (k1_pay1 (F := F)) := by
  obtain ⟨n, hn⟩ := t
  cases n with
  | zero => rfl
  | succ n => exact if_pos h

theorem accAt1_next (c : Dev nD) (t : Fin cfg1.N) (h : ¬t.val % 8 = 0) :
    accAt1 V c t.val t.isLt
      = k1_pay2 (qblk1 V c t) (kblk1 V c t) (accAt1 V c (t.val - 1) (Nat.lt_of_le_of_lt (Nat.sub_le _ _) t.isLt)) := by
  obtain ⟨n, hn⟩ := t
  cases n with
  | zero => exact absurd (Nat.zero_mod _) h
  | succ n => exact if_neg h

/-- The region invariant before position `n`: before the first point the class's (the scratch at anything); afterwards
    the scratch at what the point before left, the other scoped buffers at anything, the generator register at some state. -/
def PhiS1 (c : Dev nD) : (n : ℕ) → n ≤ cfg1.N → sProp 𝕄
  | 0, _ => Pipeline.ΦA spec1 c
  | n + 1, hn => iprop(iprop(owns (c : Thread nD τ) acc1 fullShare (accAt1 V c n hn) ∗ others1 (F := F) c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) acc1 fullShare (accAt1 V c n hn) ∗ others1 (F := F) c) ∗ (∃ r, prngReg c r)) := rfl
theorem PhiS1_pos (c : Dev nD) (n : ℕ) (h : n ≤ cfg1.N) (hz : n ≠ 0) :
    PhiS1 V c n h = iprop(iprop(owns (c : Thread nD τ) acc1 fullShare (accAt1 V c (n - 1) (by omega)) ∗ others1 (F := F) c) ∗ (∃ r, prngReg c r)) := by
  cases n with
  | zero => exact absurd rfl hz
  | succ n => rfl

/-- The proof data of the pipeline on core `c`: the arrays as the region finds them; after the body at point `t` each
    input's buffer at its block and the output's at the accumulator (which is what it holds where the body writes it);
    the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem Phi1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt1 V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))
/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t)

set_option maxHeartbeats 4000000 in
/-- The body at any point. The inputs' memrefs hold their blocks; the point's position mod 8 says which of the three
    cases it is in; the invariant hands the body the scratch at what the point before left (at anything at a restart)
    and takes it back at this point's value; off the emitting points the output's buffer is handed back untouched, at
    them it is left at the accumulator's new value. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  have hN : t.val < 64 := lt_of_lt_of_eq t.isLt (show cfg1.N = 64 from N_1)
  by_cases h0 : t.val % 8 = 0
  · -- a restart: the scratch is at anything (the class invariant at the first point, a named value afterwards)
    have h7 : ¬t.val % 8 = 7 := by omega
    have he : ¬emit1 (grid1.coords t) := fun h => h7 ((hemit1 t).mp h)
    rw [Dat.leavesExact_idle (dat1 V c) 2 t (idle1_2 t he) (noFlush1_2 t he), accAt1_first V c t h0]
    by_cases hz : t.val = 0
    · rw [Phi1_castSucc V c t, PhiS1_zero V c _ _ hz]
      iintro ⟨HP, Ho, ⟨%d0, H0⟩, ⟨%d1, H1⟩, ⟨%d2, H2⟩⟩
      ihave HP2 := (PhiA1_open (F := F) c) $$ HP
      icases HP2 with ⟨⟨HS, Hoth⟩, Hg⟩
      iapply (run1_first c (grid1.coords t) _ _ _ _ _ _ _ _ ((hreset1 t).mpr h0) he (qblk1 V c t) (kblk1 V c t) _ Set.univ _)
      isplitl [H0]; · iexact H0
      isplitl [H1]; · iexact H1
      isplitl [H2]; · iexact H2
      isplitl [HS]; · iexact HS
      iintro ⟨H0, H1, H2, HS⟩
      isplitl [HS Hoth Hg]
      · isplitr [Hg]
        · isplitl [HS]; · iexact HS
          iexact Hoth
        iexact Hg
      isplitl [Ho]; · iexact Ho
      isplitl [H0]; · iexact H0
      isplitl [H1]; · iexact H1
      iexists _; iexact H2
    · rw [Phi1_castSucc V c t, PhiS1_pos V c _ _ hz]
      iintro ⟨⟨⟨HS, Hoth⟩, Hg⟩, Ho, ⟨%d0, H0⟩, ⟨%d1, H1⟩, ⟨%d2, H2⟩⟩
      iapply (run1_first c (grid1.coords t) _ _ _ _ _ _ _ _ ((hreset1 t).mpr h0) he (qblk1 V c t) (kblk1 V c t) _ Set.univ _)
      isplitl [H0]; · iexact H0
      isplitl [H1]; · iexact H1
      isplitl [H2]; · iexact H2
      isplitl [HS]; · iexists _; iexact HS
      iintro ⟨H0, H1, H2, HS⟩
      isplitl [HS Hoth Hg]
      · isplitr [Hg]
        · isplitl [HS]; · iexact HS
          iexact Hoth
        iexact Hg
      isplitl [Ho]; · iexact Ho
      isplitl [H0]; · iexact H0
      isplitl [H1]; · iexact H1
      iexists _; iexact H2
  · have hz : t.val ≠ 0 := fun e => h0 (by rw [e])
    have hr : ¬reset1 (grid1.coords t) := fun h => h0 ((hreset1 t).mp h)
    rw [Phi1_castSucc V c t, PhiS1_pos V c _ _ hz, accAt1_next V c t h0]
    by_cases h7 : t.val % 8 = 7
    · -- the last key tile: the output's buffer is left at the accumulator's new value
      have he : emit1 (grid1.coords t) := (hemit1 t).mpr h7
      rw [show (dat1 V c).leavesExact 2 t = owns (c : Thread nD τ) (ms1_2 t) fullShare ((dat1 V c).after 2 t) from by
        unfold Dat.leavesExact; rw [live1_2 t he], after1_2, accAt1_next V c t h0]
      iintro ⟨⟨⟨HS, Hoth⟩, Hg⟩, Ho, ⟨%d0, H0⟩, ⟨%d1, H1⟩, ⟨%d2, H2⟩⟩
      iapply (run1_last c (grid1.coords t) _ _ _ _ _ _ _ _ hr he (qblk1 V c t) (kblk1 V c t) _ Set.univ _)
      isplitl [H0]; · iexact H0
      isplitl [H1]; · iexact H1
      isplitl [H2]; · iexists _; iexact H2
      isplitl [HS]; · iexact HS
      iintro ⟨H0, H1, H2, HS⟩
      isplitl [HS Hoth Hg]
      · isplitr [Hg]
        · isplitl [HS]; · iexact HS
          iexact Hoth
        iexact Hg
      isplitl [Ho]; · iexact Ho
      isplitl [H0]; · iexact H0
      isplitl [H1]; · iexact H1
      iexact H2
    · have he : ¬emit1 (grid1.coords t) := fun h => h7 ((hemit1 t).mp h)
      rw [Dat.leavesExact_idle (dat1 V c) 2 t (idle1_2 t he) (noFlush1_2 t he)]
      iintro ⟨⟨⟨HS, Hoth⟩, Hg⟩, Ho, ⟨%d0, H0⟩, ⟨%d1, H1⟩, ⟨%d2, H2⟩⟩
      iapply (run1_mid c (grid1.coords t) _ _ _ _ _ _ _ _ hr he (qblk1 V c t) (kblk1 V c t) _ _ Set.univ _)
      isplitl [H0]; · iexact H0
      isplitl [H1]; · iexact H1
      isplitl [H2]; · iexact H2
      isplitl [HS]; · iexact HS
      iintro ⟨H0, H1, H2, HS⟩
      isplitl [HS Hoth Hg]
      · isplitr [Hg]
        · isplitl [HS]; · iexact HS
          iexact Hoth
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the scratch's named contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 64 := N_1; omega
  rw [show (dat1 V c).Φ (Fin.last cfg1.N) = PhiS1 V c (Fin.last cfg1.N).val (Nat.le_of_lt_succ (Fin.last cfg1.N).isLt) from rfl,
    PhiS1_pos V c _ _ hne]
  refine .trans ?_ (PhiA1_close (F := F) c)
  iintro ⟨⟨HS, Hoth⟩, Hg⟩
  isplitr [Hg]
  · isplitl [HS]; · iexists _; iexact HS
    iexact Hoth
  iexact Hg

end

end Cert.KernelIdeal.Hand

end
-- ==== Proof.KI.Launch.lean ====
/- The run of @main: call 0, call 1, then the host tail.

   The buffers' contents at each boundary are a fold through @main from the launch memory: a call leaves its arrays at
   what its write-backs leave (the two inputs as entered, the output with each written-back block overwritten) and
   every other buffer as entered; the tail applies its operations. Every weakly fair execution terminates, and at the
   end the result buffer holds the tail's value of what the two calls left, and the two arguments their launch
   contents. -/
import proofs.«144344_j69870527971439_1_alg».proof.Proof.KI.Dat0
import proofs.«144344_j69870527971439_1_alg».proof.Proof.KI.Dat1
import proofs.«144344_j69870527971439_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch (call 0's entry). -/
abbrev W0 : Dev nD → Valuation τ sig (Elt F) := fun c b => m (c, b)
abbrev E0 : (c : Dev nD) → (b : Ref sig .tc) → Buf (Elt F) ((c : Thread nD τ).loc b) := fun c b => W0 m c b
/-- After call 0 (call 1's entry): its arrays at what the pipeline leaves, every other buffer as entered. -/
def W1 (c : Dev nD) : Valuation τ sig (Elt F) :=
  Pipeline.withArrays spec0 c (W0 m c) fun w => (dat0 (E0 m) c).arrAt w cfg0.N
theorem W1_arr (c : Dev nD) (w : Fin cfg0.W) :
    W1 m c (Proc.devRef .tc (Pipeline.arrRef spec0 w)) = (dat0 (E0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev E1 : (c : Dev nD) → (b : Ref sig .tc) → Buf (Elt F) ((c : Thread nD τ).loc b) := fun c b => W1 m c b
theorem exit0_arr (c : Dev nD) (w : Fin cfg0.W) : (dat0 (E0 m) c).arrAt w cfg0.N = E1 m c (Pipeline.arrRef spec0 w) :=
  (W1_arr m c w).symm
theorem exit0_rest (c : Dev nD) : ∀ b, b ∉ Finset.univ.image (Pipeline.arrRef spec0) → E1 m c b = E0 m c b :=
  fun b hb => W1_of_ne m c b fun w e => hb (Finset.mem_image.mpr ⟨w, Finset.mem_univ _, e⟩)

/-- After call 1 (the tail's entry). -/
def W2 (c : Dev nD) : Valuation τ sig (Elt F) :=
  Pipeline.withArrays spec1 c (W1 m c) fun w => (dat1 (E1 m) c).arrAt w cfg1.N
theorem W2_arr (c : Dev nD) (w : Fin cfg1.W) :
    W2 m c (Proc.devRef .tc (Pipeline.arrRef spec1 w)) = (dat1 (E1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev E2 : (c : Dev nD) → (b : Ref sig .tc) → Buf (Elt F) ((c : Thread nD τ).loc b) := fun c b => W2 m c b
theorem exit1_arr (c : Dev nD) (w : Fin cfg1.W) : (dat1 (E1 m) c).arrAt w cfg1.N = E2 m c (Pipeline.arrRef spec1 w) :=
  (W2_arr m c w).symm
theorem exit1_rest (c : Dev nD) : ∀ b, b ∉ Finset.univ.image (Pipeline.arrRef spec1) → E2 m c b = E1 m c b :=
  fun b hb => W2_of_ne m c b fun w e => hb (Finset.mem_image.mpr ⟨w, Finset.mem_univ _, e⟩)

/-- After the host tail (the end). -/
abbrev W3 : Dev nD → Valuation τ sig (Elt F) := fun c => StableHlo.after hostOps2 (W2 m c)

/-- After call 0 each argument is as launched: it is one of the call's INPUT arrays, which no write-back touches. -/
theorem W1_main_arg0 (c : Dev nD) : W1 m c (Proc.devRef .tc main_arg0) = m ((c : Thread nD τ).loc main_arg0) :=
  (W1_arr m c 0).trans (((dat0 (E0 m) c).arrAt_in 0 rfl _).trans (A_eq0 (E0 m) c 0))
theorem W1_main_arg1 (c : Dev nD) : W1 m c (Proc.devRef .tc main_arg1) = m ((c : Thread nD τ).loc main_arg1) :=
  (W1_arr m c 1).trans (((dat0 (E0 m) c).arrAt_in 1 rfl _).trans (A_eq0 (E0 m) c 1))

/-! ### The arguments end as launched: each is an INPUT array of both calls, and no host operation writes one -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := StableHlo.after_of_writes_sub hostOps2 _ hostOps2_writes (by decide)
    _ = W1 m c (Proc.devRef .tc main_arg0) := (W2_arr m c 1).trans (((dat1 (E1 m) c).arrAt_in 1 rfl _).trans (A_eq1 (E1 m) c 1))
    _ = W0 m c (Proc.devRef .tc main_arg0) := (W1_arr m c 0).trans (((dat0 (E0 m) c).arrAt_in 0 rfl _).trans (A_eq0 (E0 m) c 0))
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := StableHlo.after_of_writes_sub hostOps2 _ hostOps2_writes (by decide)
    _ = W1 m c (Proc.devRef .tc main_arg1) := (W2_arr m c 0).trans (((dat1 (E1 m) c).arrAt_in 0 rfl _).trans (A_eq1 (E1 m) c 0))
    _ = W0 m c (Proc.devRef .tc main_arg1) := (W1_arr m c 1).trans (((dat0 (E0 m) c).arrAt_in 1 rfl _).trans (A_eq0 (E0 m) c 1))
    _ = m ((c : Thread nD τ).loc main_arg1) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m c) ∗ ∃ r, prngReg c r)

set_option backward.isDefEq.respectTransparency.types false in
/-- Call 0 as a segment: entered with every unscoped buffer at the contents before it, left with its arrays at what the
    write-backs leave and every other buffer as entered. Its arrays are split out of the unscoped buffers at entry and
    put back at exit; the generator register goes into the invariant and comes back; nothing is owed; the kernel has no
    semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (E0 m) c)
    unfold Pipeline.ΦA
    iintro ⟨Hp, -, Hr⟩
    isplitl [Hr]; · iexact Hr
    iexact Hp
  hout c := by
    refine (hout0 (E0 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment: entered with every unscoped buffer at the contents before it, left with its arrays at what the
    write-backs leave and every other buffer as entered. Its arrays are split out of the unscoped buffers at entry and
    put back at exit; the generator register goes into the invariant and comes back; nothing is owed; the kernel has no
    semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (E1 m) c)
    unfold Pipeline.ΦA
    iintro ⟨Hp, -, Hr⟩
    isplitl [Hr]; · iexact Hr
    iexact Hp
  hout c := by
    refine (hout1 (E1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The host tail as a segment. -/
abbrev tailSeg : Pipeline.HostSeg (Name := ℕ) (U := UR sig nD τ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W2 m) R

/-! ## @main as segments, and the launch -/

abbrev items : List (Pipeline.Seg (pcfgs (F := F)) adm (pdats m) () defs₀ 𝒱₀ L lv) :=
  [ .region (reg0 m), .region (reg1 m), .host (tailSeg m) ]
theorem main_run (c : Dev nD) : main (F := F) c = Pipeline.Seg.run (items m) := (main_chain c).trans (by chain_rfl)

set_option backward.isDefEq.respectTransparency.types false in
/-- THE RUN, at any instance: from any memory with zero counters every weakly fair execution of @main terminates,
    nothing faulting, and every final state has the result buffer at the last valuation's value and the two
    argument arrays as launched. -/
theorem run_main : θ_run defs (onTc (τ := τ) (main (F := F))) ⟨m, fun _ => 0, ρ⟩ (fun r => ∀ c : Dev nD,
      r.2.mem ((c.tc : Thread nD τ).loc main_v13) = W3 m c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m) () cellOf_inj emb₁ defs₀ 𝒱₀ L lv m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show iprop(StableHlo.held (c : Thread nD τ) (Pipeline.ucRefs τ sig) (StableHlo.after hostOps2 (W2 m c)) ∗ R c)
        ⊢ iprop(Tₙ m c ∗ ∃ W, owes (c : Thread nD τ) (0 : CellTallies nD τ sig Unit) W)
      iintro ⟨Hh, Hp, Ho⟩
      isplitr [Ho]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨h c _ (mem_uc main_v13 (by decide)),
       (h c _ (mem_uc main_arg0 (by decide))).trans (W3_main_arg0 m c),
       (h c _ (mem_uc main_arg1 (by decide))).trans (W3_main_arg1 m c)⟩)

end Cert.KernelIdeal.Hand

end
-- ==== Proof.Spec.lean ====
/- The mathematics both programs compute, over the extended reals.

   For two clouds `p` (N points) and `o` (M points) of 3-vectors in each of 4 batches, the squared distance between
   point n of `p` and point m of `o` is computed in the expanded form |p_n|² + |o_m|² − 2·⟨p_n, o_m⟩, and for each n
   the minimum of it over m is taken (from +∞). The loss is 100 · (Σ_b ½·(mean_m nearest(o→p) + mean_n nearest(p→o)))/4.

   A minimum over a finite family is carried by its universal property (`le_rowMin_iff`): that is what makes the
   minimum over 4096 keys equal to the running minimum of the row minima of 8 tiles of 512 keys, with no appeal to
   the order the tiles come in. -/
import Idealize.ShloMosaic.PureOps.Ideal
import Idealize.ShloMosaic.PureOps.Ideal.Laws
import Idealize.ShloMosaic.Lib.ValueIdx
import Idealize.ShloMosaic.PureOps

noncomputable section

namespace Cert.Chamfer

open Idealize.ShloMosaic Idealize.ShloMosaic.ValueIdx

/-- A cloud: 4 batches of `N` points in 3-space. -/
abbrev Cloud (N : ℕ) : Type := (⟨3, ![4, N, 3]⟩ : Shape).Idx → EReal

/-- The literal 2.0 of both programs (the same word on both sides: never evaluated). -/
abbrev two : EReal := Ideal.ofBits .f32 0x40000000#32

/-- |p_n|² in batch b. -/
def sqNorm {N : ℕ} (p : Cloud N) (b : Fin 4) (n : Fin N) : EReal := ∑ d : Fin 3, p (ix3 b n d) * p (ix3 b n d)
/-- ⟨p_n, o_m⟩ in batch b. -/
def inner {N M : ℕ} (p : Cloud N) (o : Cloud M) (b : Fin 4) (n : Fin N) (m : Fin M) : EReal :=
  ∑ d : Fin 3, p (ix3 b n d) * o (ix3 b m d)
/-- The squared distance in the expanded form. -/
def dist2 {N M : ℕ} (p : Cloud N) (o : Cloud M) (b : Fin 4) (n : Fin N) (m : Fin M) : EReal :=
  (sqNorm p b n + sqNorm o b m) - two * inner p o b n m

/-- The expanded form is symmetric under swapping the two clouds (commutativity of + and · alone: no finiteness). -/
theorem dist2_swap {N M : ℕ} (p : Cloud N) (o : Cloud M) (b : Fin 4) (n : Fin N) (m : Fin M) :
    dist2 o p b m n = dist2 p o b n m := by
  unfold dist2 inner
  rw [add_comm (sqNorm o b m)]
  exact congrArg (fun z => (sqNorm p b n + sqNorm o b m) - two * z) (Finset.sum_congr rfl fun d _ => mul_comm _ _)

/-- The minimum of a finite family, from +∞. -/
def rowMin {n : ℕ} (f : Fin n → EReal) : EReal := (Finset.univ : Finset (Fin n)).fold min ⊤ f

/-- Its universal property. -/
theorem le_rowMin_iff {n : ℕ} (f : Fin n → EReal) (x : EReal) : x ≤ rowMin f ↔ ∀ k, x ≤ f k := by
  unfold rowMin
  rw [Finset.le_fold_min]
  exact ⟨fun h k => h.2 k (Finset.mem_univ k), fun h => ⟨le_top, fun k _ => h k⟩⟩

/-- Two extended reals with the same lower bounds are equal. -/
theorem eq_of_le_iff {a b : EReal} (h : ∀ x, x ≤ a ↔ x ≤ b) : a = b :=
  le_antisymm ((h a).mp le_rfl) ((h b).mpr le_rfl)

/-- For each point n of `p`, the squared distance to the nearest point of `o`. -/
def nearest {N M : ℕ} (p : Cloud N) (o : Cloud M) (b : Fin 4) (n : Fin N) : EReal := rowMin fun m => dist2 p o b n m

/-- The same minimum taken over the OTHER cloud's points: for each point m of `o`, over the points n of `p`. -/
def nearestT {N M : ℕ} (p : Cloud N) (o : Cloud M) (b : Fin 4) (m : Fin M) : EReal := rowMin fun n => dist2 p o b n m

theorem nearestT_eq {N M : ℕ} (p : Cloud N) (o : Cloud M) (b : Fin 4) (m : Fin M) : nearestT p o b m = nearest o p b m := by
  unfold nearestT nearest
  exact congrArg rowMin (funext fun n => (dist2_swap p o b n m).symm)

/-! ## The loss from the two arrays of row minima

Both programs end with the same host operations on the two [4, 4096] arrays of nearest squared distances `X` (per point of
the second cloud) and `Y` (per point of the first): the mean of each over its 4096 points, their sum halved, the
mean of that over the 4 batches, times 100. Written once, with the literals as the words both programs print. -/

abbrev Rows : Shape := ⟨2, ![4, 4096]⟩
abbrev Bat : Shape := ⟨1, ![4]⟩
abbrev Sc : Shape := ⟨0, ![]⟩

def loss (h1 : Rows.ReducesTo [1] Bat) (h0 : Bat.ReducesTo [0] Sc) (hs : 0 < Sc.numel)
    (hb : Sc.BroadcastsInDim Bat (![] : Fin 0 → Fin Bat.rank)) (X Y : FVec Ideal Rows .f32) : FVec Ideal Sc .f32 :=
  mulf (constant (F := Ideal) Sc .f32 0x42C80000#32)
    (Host.divf
      (Host.reduceAdd
        (mulf (broadcastInDim Bat ![] hb (constant (F := Ideal) Sc .f32 0x3F000000#32))
          (addf
            (Host.divf (Host.reduceAdd X (constant (F := Ideal) Sc .f32 0x00000000#32) h1 hs)
              (broadcastInDim Bat ![] hb (constant (F := Ideal) Sc .f32 0x45800000#32)))
            (Host.divf (Host.reduceAdd Y (constant (F := Ideal) Sc .f32 0x00000000#32) h1 hs)
              (broadcastInDim Bat ![] hb (constant (F := Ideal) Sc .f32 0x45800000#32)))))
        (constant (F := Ideal) Sc .f32 0x00000000#32) h0 hs)
      (constant (F := Ideal) Sc .f32 0x40800000#32))

end Cert.Chamfer

end
-- ==== Proof.Val.Pay.lean ====
/- One step of the running minimum of squared distances, read at an index, over the extended reals.

   The step takes a block of 512 query points and a block of 512 key points (4 batches of 3-vectors each) and the
   running minimum so far. It forms |p_n|² and |o_m|² as sums of squares over the 3 coordinates, the cross term
   ⟨p_n, o_m⟩ as a product of the two blocks contracted over the coordinate axis, the squared distance in the expanded
   form (|p_n|² + |o_m|²) − 2·⟨p_n, o_m⟩ on the [4, 512, 512] grid, its minimum over m from +∞, and the minimum of that
   with the running value. Read at batch b and query r it is min (a (b, r)) (min over the 512 keys of dist2 p o b r ·).
   The running value starts at +∞ everywhere. Both calls of the program take the same step, so every ingredient is a
   lemma over variable blocks and the two statements per call are assembled from them. -/
import proofs.«144344_j69870527971439_1_alg».proof.Proof.Gen.KernelIdeal.Skeleton
import proofs.«144344_j69870527971439_1_alg».proof.Proof.Spec
import Idealize.ShloMosaic.PureOps.Ideal.Laws
import Idealize.ShloMosaic.Lib.ValueIdx
import Idealize.ShloMosaic.Lib.Pipeline.Value

noncomputable section

namespace Cert.Chamfer.Pay

open Cert.KernelIdeal Cert.KernelIdeal.Gen Cert.Chamfer Idealize.ShloMosaic Idealize.ShloMosaic.ValueIdx

/-- The word 0x7F800000 read as an extended real is +∞. -/
theorem ofBits_inf_f32 : Ideal.ofBits .f32 0x7F800000#32 = (⊤ : EReal) := by
  simp [Ideal.ofBits, Ideal.ieee]

/-- The minimum over the last axis of a [4,512,512] block, at (b, r): the minimum of the row from +∞. -/
theorem minRow_apply (x : FVec Ideal S4x512x512 .f32) (b : Fin 4) (r : Fin 512) :
    multiReduction (F := Ideal) .minimumf [2] S4x512 x 0x7F800000#32 reduces_S4x512x512_S4x512 (.inl rfl) rfl (ix2 b r)
      = rowMin fun q : Fin 512 => x (ix3 b r q) := by
  refine (multiReduction_minimumf_eq_fold x _ reduces_S4x512x512_S4x512 _ _ (ix2 b r)).trans ?_
  refine (reduces_S4x512x512_S4x512.fold_filter_drop_single _ _ x (ix2 b r)).trans ?_
  have e : ∀ q : Fin 512, reduces_S4x512x512_S4x512.lift (ix2 b r) q = ix3 b r q := fun q =>
    funext fun a => Fin.ext (by match a with | ⟨0, _⟩ => rfl | ⟨1, _⟩ => rfl | ⟨2, _⟩ => rfl)
  unfold rowMin
  show Finset.fold min (Ideal.ofBits .f32 0x7F800000#32) (x ∘ reduces_S4x512x512_S4x512.lift (ix2 b r)) (Finset.univ : Finset (Fin 512)) = _
  rw [ofBits_inf_f32]
  exact congrArg (fun f => Finset.fold min (⊤ : EReal) f (Finset.univ : Finset (Fin 512))) (funext fun q => congrArg x (e q))

/-- The sum of squares over the last axis of a [4,512,3] block, at (b, n): |x_n|² in batch b. -/
theorem sqRow_apply (x : Vec Ideal S4x512x3 .f32) (b : Fin 4) (n : Fin 512) :
    multiReduction (F := Ideal) .add [2] S4x512 (mulf x x) 0x00000000#32 reduces_S4x512x3_S4x512 (.inl rfl) rfl (ix2 b n)
      = sqNorm (N := 512) x b n := by
  refine (Ideal.multiReduction_add_single (mulf x x) _ reduces_S4x512x3_S4x512 _ _ (ix2 b n)).trans ?_
  unfold sqNorm
  refine Finset.sum_congr rfl fun d _ => ?_
  have e : reduces_S4x512x3_S4x512.lift (ix2 b n) d = ix3 b n d :=
    funext fun a => Fin.ext (by match a with | ⟨0, _⟩ => rfl | ⟨1, _⟩ => rfl | ⟨2, _⟩ => rfl)
  exact congrArg (fun i => x i * x i) e

/-- A [4,512] array viewed [4,512,1] and repeated along the last axis reads, at (b, n, m), the array at (b, n). -/
theorem bcastLast_apply (y : FVec Ideal S4x512 .f32) (b : Fin 4) (n m : Fin 512) :
    broadcastTo S4x512x512 (shapeCast S4x512x1 y shapeCasts_S4x512_S4x512x1) broadcasts_S4x512x1_S4x512x512 (ix3 b n m)
      = y (ix2 b n) := by
  refine (broadcastTo_apply _ broadcasts_S4x512x1_S4x512x512 (ix3 b n m) (ix3 b n (0 : Fin 1)) fun a => ?_).trans ?_
  · match a with
    | ⟨0, _⟩ => rfl
    | ⟨1, _⟩ => rfl
    | ⟨2, _⟩ => rfl
  · refine shapeCast_apply y shapeCasts_S4x512_S4x512x1 (ix3 b n (0 : Fin 1)) (ix2 b n) ?_
    rw [Shape.rowMajor_val_three, Shape.rowMajor_val_two]
    show b.val * 512 + n.val = (b.val * 512 + n.val) * 1 + 0
    omega

/-- A [4,512] array viewed [4,1,512] and repeated along the middle axis reads, at (b, n, m), the array at (b, m). -/
theorem bcastMid_apply (y : FVec Ideal S4x512 .f32) (b : Fin 4) (n m : Fin 512) :
    broadcastTo S4x512x512 (shapeCast S4x1x512 y shapeCasts_S4x512_S4x1x512) broadcasts_S4x1x512_S4x512x512 (ix3 b n m)
      = y (ix2 b m) := by
  refine (broadcastTo_apply _ broadcasts_S4x1x512_S4x512x512 (ix3 b n m) (ix3 b (0 : Fin 1) m) fun a => ?_).trans ?_
  · match a with
    | ⟨0, _⟩ => rfl
    | ⟨1, _⟩ => rfl
    | ⟨2, _⟩ => rfl
  · refine shapeCast_apply y shapeCasts_S4x512_S4x1x512 (ix3 b (0 : Fin 1) m) (ix2 b m) ?_
    rw [Shape.rowMajor_val_three, Shape.rowMajor_val_two]
    show b.val * 512 + m.val = (b.val * 1 + 0) * 512 + m.val
    omega

/-! The cross term: the product of the two blocks with batch axis 0 and contracted axis 2. The six lemmas read the two
operand indices of the contraction at an output index, one axis each. -/

theorem crossL0 (i : S4x512x512.Idx) (q : dot_S4x512x3_S4x512x3_S4x512x512_2_2_1_1_0_0.contr.Idx) :
    (dot_S4x512x3_S4x512x3_S4x512x512_2_2_1_1_0_0.lhsIdx i q 0).val = (i 0).val := by
  unfold DotDims.lhsIdx
  rw [dif_pos (show (0 : Fin S4x512x3.rank) ∈ dot_S4x512x3_S4x512x3_S4x512x512_2_2_1_1_0_0.lhsBatch by decide)]
  rfl
theorem crossL1 (i : S4x512x512.Idx) (q : dot_S4x512x3_S4x512x3_S4x512x512_2_2_1_1_0_0.contr.Idx) :
    (dot_S4x512x3_S4x512x3_S4x512x512_2_2_1_1_0_0.lhsIdx i q 1).val = (i 1).val := by
  unfold DotDims.lhsIdx
  rw [dif_neg (show ¬(1 : Fin S4x512x3.rank) ∈ dot_S4x512x3_S4x512x3_S4x512x512_2_2_1_1_0_0.lhsBatch by decide),
    dif_pos (show (1 : Fin S4x512x3.rank) ∈ dot_S4x512x3_S4x512x3_S4x512x512_2_2_1_1_0_0.lhsNonContracting by decide)]
  rfl
theorem crossL2 (i : S4x512x512.Idx) (q : dot_S4x512x3_S4x512x3_S4x512x512_2_2_1_1_0_0.contr.Idx) :
    (dot_S4x512x3_S4x512x3_S4x512x512_2_2_1_1_0_0.lhsIdx i q 2).val = (q ⟨0, by decide⟩).val :=
  dot_S4x512x3_S4x512x3_S4x512x512_2_2_1_1_0_0.lhsIdx_val_of_single rfl i q
theorem crossR0 (i : S4x512x512.Idx) (q : dot_S4x512x3_S4x512x3_S4x512x512_2_2_1_1_0_0.contr.Idx) :
    (dot_S4x512x3_S4x512x3_S4x512x512_2_2_1_1_0_0.rhsIdx i q 0).val = (i 0).val := by
  unfold DotDims.rhsIdx
  rw [dif_pos (show (0 : Fin S4x512x3.rank) ∈ dot_S4x512x3_S4x512x3_S4x512x512_2_2_1_1_0_0.rhsBatch by decide)]
  rfl
theorem crossR1 (i : S4x512x512.Idx) (q : dot_S4x512x3_S4x512x3_S4x512x512_2_2_1_1_0_0.contr.Idx) :
    (dot_S4x512x3_S4x512x3_S4x512x512_2_2_1_1_0_0.rhsIdx i q 1).val = (i 2).val := by
  unfold DotDims.rhsIdx
  rw [dif_neg (show ¬(1 : Fin S4x512x3.rank) ∈ dot_S4x512x3_S4x512x3_S4x512x512_2_2_1_1_0_0.rhsBatch by decide),
    dif_pos (show (1 : Fin S4x512x3.rank) ∈ dot_S4x512x3_S4x512x3_S4x512x512_2_2_1_1_0_0.rhsNonContracting by decide)]
  rfl
theorem crossR2 (i : S4x512x512.Idx) (q : dot_S4x512x3_S4x512x3_S4x512x512_2_2_1_1_0_0.contr.Idx) :
    (dot_S4x512x3_S4x512x3_S4x512x512_2_2_1_1_0_0.rhsIdx i q 2).val = (q ⟨0, by decide⟩).val :=
  dot_S4x512x3_S4x512x3_S4x512x512_2_2_1_1_0_0.rhsIdx_val_of_single rfl i q

/-- The product of the two blocks (their format narrowed, which changes no value) into the zero block, at (b, n, m):
⟨x_n, y_m⟩ in batch b. -/
theorem cross_apply (x y : Vec Ideal S4x512x3 .f32) (b : Fin 4) (n m : Fin 512) :
    matmul (F := Ideal) dot_S4x512x3_S4x512x3_S4x512x512_2_2_1_1_0_0 none (truncf .bf16 x bitsLt_bf16_f32)
        (truncf .bf16 y bitsLt_bf16_f32) (constant S4x512x512 .f32 0x00000000#32) (ix3 b n m)
      = inner (N := 512) (M := 512) x y b n m := by
  refine (Ideal.matmul_constant_zero_apply dot_S4x512x3_S4x512x3_S4x512x512_2_2_1_1_0_0 none _ _ (ix3 b n m)).trans ?_
  rw [← Equiv.sum_comp (contrEquiv1 dot_S4x512x3_S4x512x3_S4x512x512_2_2_1_1_0_0 3 rfl rfl).symm]
  unfold inner
  refine Finset.sum_congr rfl fun d _ => ?_
  have hd := contrEquiv1_symm_val dot_S4x512x3_S4x512x3_S4x512x512_2_2_1_1_0_0 3 rfl rfl d
  have el : dot_S4x512x3_S4x512x3_S4x512x512_2_2_1_1_0_0.lhsIdx (ix3 b n m)
      ((contrEquiv1 dot_S4x512x3_S4x512x3_S4x512x512_2_2_1_1_0_0 3 rfl rfl).symm d) = ix3 b n d :=
    funext fun a => Fin.ext (by
      match a with
      | ⟨0, _⟩ => exact crossL0 _ _
      | ⟨1, _⟩ => exact crossL1 _ _
      | ⟨2, _⟩ => exact (crossL2 _ _).trans hd)
  have er : dot_S4x512x3_S4x512x3_S4x512x512_2_2_1_1_0_0.rhsIdx (ix3 b n m)
      ((contrEquiv1 dot_S4x512x3_S4x512x3_S4x512x512_2_2_1_1_0_0 3 rfl rfl).symm d) = ix3 b m d :=
    funext fun a => Fin.ext (by
      match a with
      | ⟨0, _⟩ => exact crossR0 _ _
      | ⟨1, _⟩ => exact crossR1 _ _
      | ⟨2, _⟩ => exact (crossR2 _ _).trans hd)
  show x _ * y _ = x (ix3 b n d) * y (ix3 b m d)
  rw [el, er]

/-! ## The two values each call stores: the starting value +∞, and one step of the running minimum -/

theorem pay1_apply0 (j : S4x512.Idx) : k0_pay1 (F := Ideal) j = (⊤ : EReal) := by
  unfold k0_pay1
  refine (congrFun (shapeCast_self _ _) j).trans ?_
  exact ofBits_inf_f32

theorem pay2_apply0 (p o : Vec Ideal S4x512x3 .f32) (a : Vec Ideal S4x512 .f32) (b : Fin 4) (r : Fin 512) :
    k0_pay2 (F := Ideal) p o a (ix2 b r) = min (a (ix2 b r)) (rowMin fun q : Fin 512 => dist2 (N := 512) (M := 512) p o b r q) := by
  unfold k0_pay2
  refine (congrFun (shapeCast_self _ _) (ix2 b r)).trans ?_
  refine congrArg (min (a (ix2 b r))) ?_
  refine (minRow_apply _ b r).trans ?_
  refine congrArg rowMin (funext fun q => ?_)
  unfold dist2
  refine congrArg₂ (· - ·) (congrArg₂ (· + ·) ?_ ?_) (congrArg (two * ·) ?_)
  · exact (bcastLast_apply _ b r q).trans (sqRow_apply p b r)
  · exact (bcastMid_apply _ b r q).trans (sqRow_apply o b q)
  · exact cross_apply p o b r q

theorem pay1_apply1 (j : S4x512.Idx) : k1_pay1 (F := Ideal) j = (⊤ : EReal) := by
  unfold k1_pay1
  refine (congrFun (shapeCast_self _ _) j).trans ?_
  exact ofBits_inf_f32

theorem pay2_apply1 (p o : Vec Ideal S4x512x3 .f32) (a : Vec Ideal S4x512 .f32) (b : Fin 4) (r : Fin 512) :
    k1_pay2 (F := Ideal) p o a (ix2 b r) = min (a (ix2 b r)) (rowMin fun q : Fin 512 => dist2 (N := 512) (M := 512) p o b r q) := by
  unfold k1_pay2
  refine (congrFun (shapeCast_self _ _) (ix2 b r)).trans ?_
  refine congrArg (min (a (ix2 b r))) ?_
  refine (minRow_apply _ b r).trans ?_
  refine congrArg rowMin (funext fun q => ?_)
  unfold dist2
  refine congrArg₂ (· - ·) (congrArg₂ (· + ·) ?_ ?_) (congrArg (two * ·) ?_)
  · exact (bcastLast_apply _ b r q).trans (sqRow_apply p b r)
  · exact (bcastMid_apply _ b r q).trans (sqRow_apply o b q)
  · exact cross_apply p o b r q

end Cert.Chamfer.Pay

end
-- ==== Proof.Val.Call0.lean ====
/- What call 0's output array holds after the run, at the extended reals: for each point of the query cloud, the squared
   distance to the nearest point of the key cloud.

   The grid walks the 8 query tiles, and for each the 8 key tiles. A block of a window at grid point t is read off its
   array at the tile the index map names (query tile t / 8, key tile t % 8). The accumulator after point t holds, at
   query row r of the tile, a value whose lower bounds are exactly the lower bounds of the distances to the keys of
   the tiles 0 … t % 8 — by induction on t, one step being "min with the tile's row minimum" and a restart being
   "from +∞". At the last key tile that is every key, so the accumulator is the nearest distance; that is the block
   written back, and the 8 written-back blocks cover the array. -/
import proofs.«144344_j69870527971439_1_alg».proof.Proof.Val.Pay
import proofs.«144344_j69870527971439_1_alg».proof.Proof.KI.Dat0
import proofs.«144344_j69870527971439_1_alg».proof.Proof.Spec
import Idealize.ShloMosaic.Lib.Pipeline.Value
import Idealize.ShloMosaic.Lib.ValueIdx

set_option maxRecDepth 16384

noncomputable section

namespace Cert.Chamfer.Call0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand Cert.Chamfer Cert.Chamfer.Pay

variable (V : (c : Dev nD) → (b : Ref sig .tc) → Buf (Elt Ideal) ((c : Thread nD τ).loc b))

/-- The query cloud and the key cloud: the arrays of the call's two input windows, as the region finds them. -/
abbrev Q (c : Dev nD) : Cloud 4096 := V c (Pipeline.arrRef spec0 0)
abbrev K (c : Dev nD) : Cloud 4096 := V c (Pipeline.arrRef spec0 1)

/-- The printed index maps, decided over the grid: the query window and the output window sit at tile t / 8 of the
    point axis, the key window at tile t % 8; every other block index is 0. -/
theorem idx : ∀ t : Fin cfg0.N,
    win0_0.index t (0 : Fin 3) = 0 ∧ win0_0.index t (1 : Fin 3) = t.val / 8 ∧ win0_0.index t (2 : Fin 3) = 0
    ∧ win0_1.index t (0 : Fin 3) = 0 ∧ win0_1.index t (1 : Fin 3) = t.val % 8 ∧ win0_1.index t (2 : Fin 3) = 0
    ∧ win0_2.index t (0 : Fin 2) = 0 ∧ win0_2.index t (1 : Fin 2) = t.val / 8 :=
  (by decide +kernel : ∀ t : Fin grid0.N, _)

/-- The query block at point t, at (b, r, d), is the query cloud at row 512·(t / 8) + r. -/
theorem qblk_apply (c : Dev nD) (t : Fin cfg0.N) (b : Fin 4) (r : Fin 512) (d : Fin 3) (n : Fin 4096)
    (hn : n.val = 512 * (t.val / 8) + r.val) : qblk0 V c t (ix3 b r d) = Q V c (ix3 b n d) := by
  obtain ⟨e0, e1, e2, -⟩ := idx t
  show V c (Pipeline.arrRef spec0 0) (((cfg0.win 0).blk t).view.emb (ix3 b r d)) = V c (Pipeline.arrRef spec0 0) (ix3 b n d)
  refine congrArg _ (funext fun a => Fin.ext ?_)
  match a with
  | ⟨0, _⟩ => show win0_0.index t (0 : Fin 3) * 4 + 1 * b.val = b.val; omega
  | ⟨1, _⟩ => show win0_0.index t (1 : Fin 3) * 512 + 1 * r.val = n.val; omega
  | ⟨2, _⟩ => show win0_0.index t (2 : Fin 3) * 3 + 1 * d.val = d.val; omega

/-- The key block at point t, at (b, q, d), is the key cloud at row 512·(t % 8) + q. -/
theorem kblk_apply (c : Dev nD) (t : Fin cfg0.N) (b : Fin 4) (q : Fin 512) (d : Fin 3) (mm : Fin 4096)
    (hm : mm.val = 512 * (t.val % 8) + q.val) : kblk0 V c t (ix3 b q d) = K V c (ix3 b mm d) := by
  obtain ⟨-, -, -, e3, e4, e5, -⟩ := idx t
  show V c (Pipeline.arrRef spec0 1) (((cfg0.win 1).blk t).view.emb (ix3 b q d)) = V c (Pipeline.arrRef spec0 1) (ix3 b mm d)
  refine congrArg _ (funext fun a => Fin.ext ?_)
  match a with
  | ⟨0, _⟩ => show win0_1.index t (0 : Fin 3) * 4 + 1 * b.val = b.val; omega
  | ⟨1, _⟩ => show win0_1.index t (1 : Fin 3) * 512 + 1 * q.val = mm.val; omega
  | ⟨2, _⟩ => show win0_1.index t (2 : Fin 3) * 3 + 1 * d.val = d.val; omega

/-- So the blocks' squared distance is the clouds' at those rows. -/
theorem dist2_blk (c : Dev nD) (t : Fin cfg0.N) (b : Fin 4) (r q : Fin 512) (n mm : Fin 4096)
    (hn : n.val = 512 * (t.val / 8) + r.val) (hm : mm.val = 512 * (t.val % 8) + q.val) :
    dist2 (N := 512) (M := 512) (qblk0 V c t) (kblk0 V c t) b r q = dist2 (Q V c) (K V c) b n mm := by
  have hq : ∀ d, qblk0 V c t (ix3 b r d) = Q V c (ix3 b n d) := fun d => qblk_apply V c t b r d n hn
  have hk : ∀ d, kblk0 V c t (ix3 b q d) = K V c (ix3 b mm d) := fun d => kblk_apply V c t b q d mm hm
  unfold dist2 sqNorm inner
  simp only [hq, hk]

/-- The tile's row minimum bounds exactly the distances to the keys of tile t % 8. -/
theorem le_tile_iff (c : Dev nD) (t : Fin cfg0.N) (b : Fin 4) (r : Fin 512) (n : Fin 4096)
    (hn : n.val = 512 * (t.val / 8) + r.val) (x : EReal) :
    (x ≤ rowMin fun q : Fin 512 => dist2 (N := 512) (M := 512) (qblk0 V c t) (kblk0 V c t) b r q)
      ↔ ∀ mm : Fin 4096, mm.val / 512 = t.val % 8 → x ≤ dist2 (Q V c) (K V c) b n mm := by
  rw [le_rowMin_iff]
  constructor
  · intro h mm hmm
    have hlt : mm.val % 512 < 512 := Nat.mod_lt _ (by norm_num)
    rw [← dist2_blk V c t b r ⟨mm.val % 512, hlt⟩ n mm hn (by show mm.val = 512 * (t.val % 8) + mm.val % 512; omega)]
    exact h _
  · intro h q
    have hN : t.val < 64 := lt_of_lt_of_eq t.isLt (show cfg0.N = 64 from N_0)
    have hq : q.val < 512 := q.isLt
    rw [dist2_blk V c t b r q n ⟨512 * (t.val % 8) + q.val, by omega⟩ hn rfl]
    exact h _ (by show (512 * (t.val % 8) + q.val) / 512 = t.val % 8; omega)

/-- THE INVARIANT of the running minimum: after position k the accumulator at row r bounds exactly the distances from
    query row 512·(k / 8) + r to the keys of the tiles 0 … k % 8. -/
theorem le_acc_iff (c : Dev nD) (b : Fin 4) (r : Fin 512) (x : EReal) :
    ∀ (k : ℕ) (hk : k < cfg0.N) (n : Fin 4096), n.val = 512 * (k / 8) + r.val →
      (x ≤ accAt0 V c k hk (ix2 b r) ↔ ∀ mm : Fin 4096, mm.val / 512 ≤ k % 8 → x ≤ dist2 (Q V c) (K V c) b n mm) := by
  intro k
  induction k with
  | zero =>
    intro hk n hn
    rw [accAt0_first V c ⟨0, hk⟩ rfl, pay2_apply0, pay1_apply0, min_top_left, le_tile_iff V c ⟨0, hk⟩ b r n hn]
    exact ⟨fun h mm hmm => h mm (by show mm.val / 512 = 0 % 8; omega), fun h mm hmm => h mm (by rw [hmm])⟩
  | succ k ih =>
    intro hk n hn
    by_cases h0 : (k + 1) % 8 = 0
    · rw [accAt0_first V c ⟨k + 1, hk⟩ h0, pay2_apply0, pay1_apply0, min_top_left, le_tile_iff V c ⟨k + 1, hk⟩ b r n hn]
      exact ⟨fun h mm hmm => h mm (by show mm.val / 512 = (k + 1) % 8; omega), fun h mm hmm => h mm (by rw [hmm])⟩
    · rw [accAt0_next V c ⟨k + 1, hk⟩ h0, pay2_apply0, le_min_iff, le_tile_iff V c ⟨k + 1, hk⟩ b r n hn]
      have hprev := ih (Nat.lt_of_succ_lt hk) n (by show n.val = 512 * (k / 8) + r.val; omega)
      have hprev' : x ≤ accAt0 V c ((⟨k + 1, hk⟩ : Fin cfg0.N).val - 1) (Nat.lt_of_le_of_lt (Nat.sub_le _ _) hk) (ix2 b r)
          ↔ ∀ mm : Fin 4096, mm.val / 512 ≤ k % 8 → x ≤ dist2 (Q V c) (K V c) b n mm := hprev
      rw [hprev']
      constructor
      · rintro ⟨h1, h2⟩ mm hmm
        by_cases hlt : mm.val / 512 ≤ k % 8
        · exact h1 mm hlt
        · exact h2 mm (by show mm.val / 512 = (k + 1) % 8; omega)
      · intro h
        exact ⟨fun mm hmm => h mm (by omega), fun mm hmm => h mm (by rw [hmm])⟩

/-- At the last key tile of a query tile the accumulator is the distance to the nearest key. -/
theorem acc_last (c : Dev nD) (t : Fin cfg0.N) (h7 : t.val % 8 = 7) (b : Fin 4) (r : Fin 512) (n : Fin 4096)
    (hn : n.val = 512 * (t.val / 8) + r.val) : accAt0 V c t.val t.isLt (ix2 b r) = nearest (Q V c) (K V c) b n := by
  refine eq_of_le_iff fun x => ?_
  rw [le_acc_iff V c b r x t.val t.isLt n hn]
  unfold nearest
  rw [le_rowMin_iff]
  exact ⟨fun h mm => h mm (by have := mm.isLt; omega), fun h mm _ => h mm⟩

/-- What the array ends holding: at (b, n) the nearest distance from point n of the query cloud. -/
def G (c : Dev nD) : Vec Ideal S4x4096 .f32 := fun i => nearest (Q V c) (K V c) (i 0) (i 1)

/-- WHAT A WRITING POINT WRITES BACK is its block of `G`. -/
theorem flushed_eq (c : Dev nD) (t : Fin cfg0.N) (hf : (cfg0.win 2).flush t = true) :
    (dat0 V c).flushed 2 t = ((cfg0.win 2).blk t).view.read (Elt Ideal) (G V c) := by
  have h7 : t.val % 8 = 7 := (flush0_2 t).mp hf
  have hN : t.val < 64 := lt_of_lt_of_eq t.isLt (show cfg0.N = 64 from N_0)
  obtain ⟨-, -, -, -, -, -, e6, e7⟩ := idx t
  show (cfg0.win 2).cut (grid0.coords t) ((dat0 V c).after 2 t) = _
  rw [after0_2]
  funext j
  obtain ⟨b, r, rfl⟩ : ∃ (b : Fin 4) (r : Fin 512), j = ix2 b r := ⟨j 0, j 1, eq_ix2 j⟩
  have hr : r.val < 512 := r.isLt
  show accAt0 V c t.val t.isLt (ix2 b r) = G V c (((cfg0.win 2).blk t).view.emb (ix2 b r))
  have hemb : ((cfg0.win 2).blk t).view.emb (ix2 b r) = ix2 b (⟨512 * (t.val / 8) + r.val, by omega⟩ : Fin 4096) :=
    funext fun a => Fin.ext (by
      match a with
      | ⟨0, _⟩ => show win0_2.index t (0 : Fin 2) * 4 + 1 * b.val = b.val; omega
      | ⟨1, _⟩ => show win0_2.index t (1 : Fin 2) * 512 + 1 * r.val = 512 * (t.val / 8) + r.val; omega)
  rw [hemb, acc_last V c t h7 b r ⟨512 * (t.val / 8) + r.val, by omega⟩ rfl]
  rfl

/-- Every query tile has a writing point. -/
theorem onto : ∀ q1 : Fin 8, ∃ t : Fin cfg0.N, (cfg0.win 2).flush t = true ∧ win0_2.index t = ![0, q1.val] :=
  (by decide +kernel : ∀ q1 : Fin 8, ∃ t : Fin grid0.N, win0_2.flush t = true ∧ win0_2.index t = ![0, q1.val])

/-- An index of the array is in point t's block iff each coordinate is in the block's range on its axis. -/
theorem mem_blk (t : Fin cfg0.N) (i : S4x4096.Idx) :
    i ∈ ((cfg0.win 2).blk t).view.set ↔ ∀ a : Fin 2, win0_2.index t a * S4x512.size a ≤ (i a).val ∧ (i a).val < win0_2.index t a * S4x512.size a + S4x512.size a := by
  show i ∈ ((View.whole main_v0).slice (win0_2.rect t)).set ↔ _
  rw [View.set_slice_whole, Rect.mem_set_unit]
  exact Iff.rfl

/-- The written-back blocks cover the array. -/
theorem cover (i : S4x4096.Idx) : ∃ t : Fin cfg0.N, (cfg0.win 2).flush t = true ∧ i ∈ ((cfg0.win 2).blk t).view.set := by
  have hi0 : (i 0).val < 4 := (i 0).isLt
  have hi1 : (i 1).val < 4096 := (i 1).isLt
  obtain ⟨t, hf, ht⟩ := onto ⟨(i 1).val / 512, by omega⟩
  have q0 : win0_2.index t (0 : Fin 2) = 0 := congrFun ht 0
  have q1 : win0_2.index t (1 : Fin 2) = (i 1).val / 512 := congrFun ht 1
  refine ⟨t, hf, ?_⟩
  rw [mem_blk]
  intro a
  match a with
  | ⟨0, _⟩ => show win0_2.index t (0 : Fin 2) * 4 ≤ (i 0).val ∧ (i 0).val < win0_2.index t (0 : Fin 2) * 4 + 4; omega
  | ⟨1, _⟩ => show win0_2.index t (1 : Fin 2) * 512 ≤ (i 1).val ∧ (i 1).val < win0_2.index t (1 : Fin 2) * 512 + 512; omega

/-- THE ARRAY after the run. -/
theorem final (c : Dev nD) : (dat0 V c).arrAt 2 cfg0.N = G V c :=
  (dat0 V c).arrAt_eq_of_cover 2 (G V c) (fun t hf => flushed_eq V c t hf) cover

end Cert.Chamfer.Call0

end
-- ==== Proof.Val.Call1.lean ====
/- What call 1's output array holds after the run, at the extended reals: for each point of the query cloud, the squared
   distance to the nearest point of the key cloud.

   The grid walks the 8 query tiles, and for each the 8 key tiles. A block of a window at grid point t is read off its
   array at the tile the index map names (query tile t / 8, key tile t % 8). The accumulator after point t holds, at
   query row r of the tile, a value whose lower bounds are exactly the lower bounds of the distances to the keys of
   the tiles 0 … t % 8 — by induction on t, one step being "min with the tile's row minimum" and a restart being
   "from +∞". At the last key tile that is every key, so the accumulator is the nearest distance; that is the block
   written back, and the 8 written-back blocks cover the array. -/
import proofs.«144344_j69870527971439_1_alg».proof.Proof.Val.Pay
import proofs.«144344_j69870527971439_1_alg».proof.Proof.KI.Dat1
import proofs.«144344_j69870527971439_1_alg».proof.Proof.Spec
import Idealize.ShloMosaic.Lib.Pipeline.Value
import Idealize.ShloMosaic.Lib.ValueIdx

set_option maxRecDepth 16384

noncomputable section

namespace Cert.Chamfer.Call1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand Cert.Chamfer Cert.Chamfer.Pay

variable (V : (c : Dev nD) → (b : Ref sig .tc) → Buf (Elt Ideal) ((c : Thread nD τ).loc b))

/-- The query cloud and the key cloud: the arrays of the call's two input windows, as the region finds them. -/
abbrev Q (c : Dev nD) : Cloud 4096 := V c (Pipeline.arrRef spec1 0)
abbrev K (c : Dev nD) : Cloud 4096 := V c (Pipeline.arrRef spec1 1)

/-- The printed index maps, decided over the grid: the query window and the output window sit at tile t / 8 of the
    point axis, the key window at tile t % 8; every other block index is 0. -/
theorem idx : ∀ t : Fin cfg1.N,
    win1_0.index t (0 : Fin 3) = 0 ∧ win1_0.index t (1 : Fin 3) = t.val / 8 ∧ win1_0.index t (2 : Fin 3) = 0
    ∧ win1_1.index t (0 : Fin 3) = 0 ∧ win1_1.index t (1 : Fin 3) = t.val % 8 ∧ win1_1.index t (2 : Fin 3) = 0
    ∧ win1_2.index t (0 : Fin 2) = 0 ∧ win1_2.index t (1 : Fin 2) = t.val / 8 :=
  (by decide +kernel : ∀ t : Fin grid1.N, _)

/-- The query block at point t, at (b, r, d), is the query cloud at row 512·(t / 8) + r. -/
theorem qblk_apply (c : Dev nD) (t : Fin cfg1.N) (b : Fin 4) (r : Fin 512) (d : Fin 3) (n : Fin 4096)
    (hn : n.val = 512 * (t.val / 8) + r.val) : qblk1 V c t (ix3 b r d) = Q V c (ix3 b n d) := by
  obtain ⟨e0, e1, e2, -⟩ := idx t
  show V c (Pipeline.arrRef spec1 0) (((cfg1.win 0).blk t).view.emb (ix3 b r d)) = V c (Pipeline.arrRef spec1 0) (ix3 b n d)
  refine congrArg _ (funext fun a => Fin.ext ?_)
  match a with
  | ⟨0, _⟩ => show win1_0.index t (0 : Fin 3) * 4 + 1 * b.val = b.val; omega
  | ⟨1, _⟩ => show win1_0.index t (1 : Fin 3) * 512 + 1 * r.val = n.val; omega
  | ⟨2, _⟩ => show win1_0.index t (2 : Fin 3) * 3 + 1 * d.val = d.val; omega

/-- The key block at point t, at (b, q, d), is the key cloud at row 512·(t % 8) + q. -/
theorem kblk_apply (c : Dev nD) (t : Fin cfg1.N) (b : Fin 4) (q : Fin 512) (d : Fin 3) (mm : Fin 4096)
    (hm : mm.val = 512 * (t.val % 8) + q.val) : kblk1 V c t (ix3 b q d) = K V c (ix3 b mm d) := by
  obtain ⟨-, -, -, e3, e4, e5, -⟩ := idx t
  show V c (Pipeline.arrRef spec1 1) (((cfg1.win 1).blk t).view.emb (ix3 b q d)) = V c (Pipeline.arrRef spec1 1) (ix3 b mm d)
  refine congrArg _ (funext fun a => Fin.ext ?_)
  match a with
  | ⟨0, _⟩ => show win1_1.index t (0 : Fin 3) * 4 + 1 * b.val = b.val; omega
  | ⟨1, _⟩ => show win1_1.index t (1 : Fin 3) * 512 + 1 * q.val = mm.val; omega
  | ⟨2, _⟩ => show win1_1.index t (2 : Fin 3) * 3 + 1 * d.val = d.val; omega

/-- So the blocks' squared distance is the clouds' at those rows. -/
theorem dist2_blk (c : Dev nD) (t : Fin cfg1.N) (b : Fin 4) (r q : Fin 512) (n mm : Fin 4096)
    (hn : n.val = 512 * (t.val / 8) + r.val) (hm : mm.val = 512 * (t.val % 8) + q.val) :
    dist2 (N := 512) (M := 512) (qblk1 V c t) (kblk1 V c t) b r q = dist2 (Q V c) (K V c) b n mm := by
  have hq : ∀ d, qblk1 V c t (ix3 b r d) = Q V c (ix3 b n d) := fun d => qblk_apply V c t b r d n hn
  have hk : ∀ d, kblk1 V c t (ix3 b q d) = K V c (ix3 b mm d) := fun d => kblk_apply V c t b q d mm hm
  unfold dist2 sqNorm inner
  simp only [hq, hk]

/-- The tile's row minimum bounds exactly the distances to the keys of tile t % 8. -/
theorem le_tile_iff (c : Dev nD) (t : Fin cfg1.N) (b : Fin 4) (r : Fin 512) (n : Fin 4096)
    (hn : n.val = 512 * (t.val / 8) + r.val) (x : EReal) :
    (x ≤ rowMin fun q : Fin 512 => dist2 (N := 512) (M := 512) (qblk1 V c t) (kblk1 V c t) b r q)
      ↔ ∀ mm : Fin 4096, mm.val / 512 = t.val % 8 → x ≤ dist2 (Q V c) (K V c) b n mm := by
  rw [le_rowMin_iff]
  constructor
  · intro h mm hmm
    have hlt : mm.val % 512 < 512 := Nat.mod_lt _ (by norm_num)
    rw [← dist2_blk V c t b r ⟨mm.val % 512, hlt⟩ n mm hn (by show mm.val = 512 * (t.val % 8) + mm.val % 512; omega)]
    exact h _
  · intro h q
    have hN : t.val < 64 := lt_of_lt_of_eq t.isLt (show cfg1.N = 64 from N_1)
    have hq : q.val < 512 := q.isLt
    rw [dist2_blk V c t b r q n ⟨512 * (t.val % 8) + q.val, by omega⟩ hn rfl]
    exact h _ (by show (512 * (t.val % 8) + q.val) / 512 = t.val % 8; omega)

/-- THE INVARIANT of the running minimum: after position k the accumulator at row r bounds exactly the distances from
    query row 512·(k / 8) + r to the keys of the tiles 0 … k % 8. -/
theorem le_acc_iff (c : Dev nD) (b : Fin 4) (r : Fin 512) (x : EReal) :
    ∀ (k : ℕ) (hk : k < cfg1.N) (n : Fin 4096), n.val = 512 * (k / 8) + r.val →
      (x ≤ accAt1 V c k hk (ix2 b r) ↔ ∀ mm : Fin 4096, mm.val / 512 ≤ k % 8 → x ≤ dist2 (Q V c) (K V c) b n mm) := by
  intro k
  induction k with
  | zero =>
    intro hk n hn
    rw [accAt1_first V c ⟨0, hk⟩ rfl, pay2_apply1, pay1_apply1, min_top_left, le_tile_iff V c ⟨0, hk⟩ b r n hn]
    exact ⟨fun h mm hmm => h mm (by show mm.val / 512 = 0 % 8; omega), fun h mm hmm => h mm (by rw [hmm])⟩
  | succ k ih =>
    intro hk n hn
    by_cases h0 : (k + 1) % 8 = 0
    · rw [accAt1_first V c ⟨k + 1, hk⟩ h0, pay2_apply1, pay1_apply1, min_top_left, le_tile_iff V c ⟨k + 1, hk⟩ b r n hn]
      exact ⟨fun h mm hmm => h mm (by show mm.val / 512 = (k + 1) % 8; omega), fun h mm hmm => h mm (by rw [hmm])⟩
    · rw [accAt1_next V c ⟨k + 1, hk⟩ h0, pay2_apply1, le_min_iff, le_tile_iff V c ⟨k + 1, hk⟩ b r n hn]
      have hprev := ih (Nat.lt_of_succ_lt hk) n (by show n.val = 512 * (k / 8) + r.val; omega)
      have hprev' : x ≤ accAt1 V c ((⟨k + 1, hk⟩ : Fin cfg1.N).val - 1) (Nat.lt_of_le_of_lt (Nat.sub_le _ _) hk) (ix2 b r)
          ↔ ∀ mm : Fin 4096, mm.val / 512 ≤ k % 8 → x ≤ dist2 (Q V c) (K V c) b n mm := hprev
      rw [hprev']
      constructor
      · rintro ⟨h1, h2⟩ mm hmm
        by_cases hlt : mm.val / 512 ≤ k % 8
        · exact h1 mm hlt
        · exact h2 mm (by show mm.val / 512 = (k + 1) % 8; omega)
      · intro h
        exact ⟨fun mm hmm => h mm (by omega), fun mm hmm => h mm (by rw [hmm])⟩

/-- At the last key tile of a query tile the accumulator is the distance to the nearest key. -/
theorem acc_last (c : Dev nD) (t : Fin cfg1.N) (h7 : t.val % 8 = 7) (b : Fin 4) (r : Fin 512) (n : Fin 4096)
    (hn : n.val = 512 * (t.val / 8) + r.val) : accAt1 V c t.val t.isLt (ix2 b r) = nearest (Q V c) (K V c) b n := by
  refine eq_of_le_iff fun x => ?_
  rw [le_acc_iff V c b r x t.val t.isLt n hn]
  unfold nearest
  rw [le_rowMin_iff]
  exact ⟨fun h mm => h mm (by have := mm.isLt; omega), fun h mm _ => h mm⟩

/-- What the array ends holding: at (b, n) the nearest distance from point n of the query cloud. -/
def G (c : Dev nD) : Vec Ideal S4x4096 .f32 := fun i => nearest (Q V c) (K V c) (i 0) (i 1)

/-- WHAT A WRITING POINT WRITES BACK is its block of `G`. -/
theorem flushed_eq (c : Dev nD) (t : Fin cfg1.N) (hf : (cfg1.win 2).flush t = true) :
    (dat1 V c).flushed 2 t = ((cfg1.win 2).blk t).view.read (Elt Ideal) (G V c) := by
  have h7 : t.val % 8 = 7 := (flush1_2 t).mp hf
  have hN : t.val < 64 := lt_of_lt_of_eq t.isLt (show cfg1.N = 64 from N_1)
  obtain ⟨-, -, -, -, -, -, e6, e7⟩ := idx t
  show (cfg1.win 2).cut (grid1.coords t) ((dat1 V c).after 2 t) = _
  rw [after1_2]
  funext j
  obtain ⟨b, r, rfl⟩ : ∃ (b : Fin 4) (r : Fin 512), j = ix2 b r := ⟨j 0, j 1, eq_ix2 j⟩
  have hr : r.val < 512 := r.isLt
  show accAt1 V c t.val t.isLt (ix2 b r) = G V c (((cfg1.win 2).blk t).view.emb (ix2 b r))
  have hemb : ((cfg1.win 2).blk t).view.emb (ix2 b r) = ix2 b (⟨512 * (t.val / 8) + r.val, by omega⟩ : Fin 4096) :=
    funext fun a => Fin.ext (by
      match a with
      | ⟨0, _⟩ => show win1_2.index t (0 : Fin 2) * 4 + 1 * b.val = b.val; omega
      | ⟨1, _⟩ => show win1_2.index t (1 : Fin 2) * 512 + 1 * r.val = 512 * (t.val / 8) + r.val; omega)
  rw [hemb, acc_last V c t h7 b r ⟨512 * (t.val / 8) + r.val, by omega⟩ rfl]
  rfl

/-- Every query tile has a writing point. -/
theorem onto : ∀ q1 : Fin 8, ∃ t : Fin cfg1.N, (cfg1.win 2).flush t = true ∧ win1_2.index t = ![0, q1.val] :=
  (by decide +kernel : ∀ q1 : Fin 8, ∃ t : Fin grid1.N, win1_2.flush t = true ∧ win1_2.index t = ![0, q1.val])

/-- An index of the array is in point t's block iff each coordinate is in the block's range on its axis. -/
theorem mem_blk (t : Fin cfg1.N) (i : S4x4096.Idx) :
    i ∈ ((cfg1.win 2).blk t).view.set ↔ ∀ a : Fin 2, win1_2.index t a * S4x512.size a ≤ (i a).val ∧ (i a).val < win1_2.index t a * S4x512.size a + S4x512.size a := by
  show i ∈ ((View.whole main_v1).slice (win1_2.rect t)).set ↔ _
  rw [View.set_slice_whole, Rect.mem_set_unit]
  exact Iff.rfl

/-- The written-back blocks cover the array. -/
theorem cover (i : S4x4096.Idx) : ∃ t : Fin cfg1.N, (cfg1.win 2).flush t = true ∧ i ∈ ((cfg1.win 2).blk t).view.set := by
  have hi0 : (i 0).val < 4 := (i 0).isLt
  have hi1 : (i 1).val < 4096 := (i 1).isLt
  obtain ⟨t, hf, ht⟩ := onto ⟨(i 1).val / 512, by omega⟩
  have q0 : win1_2.index t (0 : Fin 2) = 0 := congrFun ht 0
  have q1 : win1_2.index t (1 : Fin 2) = (i 1).val / 512 := congrFun ht 1
  refine ⟨t, hf, ?_⟩
  rw [mem_blk]
  intro a
  match a with
  | ⟨0, _⟩ => show win1_2.index t (0 : Fin 2) * 4 ≤ (i 0).val ∧ (i 0).val < win1_2.index t (0 : Fin 2) * 4 + 4; omega
  | ⟨1, _⟩ => show win1_2.index t (1 : Fin 2) * 512 ≤ (i 1).val ∧ (i 1).val < win1_2.index t (1 : Fin 2) * 512 + 512; omega

/-- THE ARRAY after the run. -/
theorem final (c : Dev nD) : (dat1 V c).arrAt 2 cfg1.N = G V c :=
  (dat1 V c).arrAt_eq_of_cover 2 (G V c) (fun t hf => flushed_eq V c t hf) cover

end Cert.Chamfer.Call1

end
-- ==== Proof.Val.Kernel.lean ====
/- The idealized kernel program's result as a function of its two arguments.

   Call 0 leaves, for each point of the first cloud, the squared distance to the nearest point of the second; call 1,
   run on the swapped pair, leaves for each point of the second cloud the distance to the nearest point of the first —
   which is the minimum over the first cloud's points of the SAME expanded distance, by its symmetry under the swap.
   The host tail then computes the loss of the two arrays. -/
import proofs.«144344_j69870527971439_1_alg».proof.Proof.KI.Launch
import proofs.«144344_j69870527971439_1_alg».proof.Proof.Val.Call0
import proofs.«144344_j69870527971439_1_alg».proof.Proof.Val.Call1
import proofs.«144344_j69870527971439_1_alg».proof.Proof.Spec
import Idealize.ShloMosaic.Lib.StableHlo.Run

set_option maxRecDepth 16384

noncomputable section

namespace Cert.Chamfer.KernelValue

open Idealize.ShloMosaic Idealize.ShloMosaic.TcCoe Idealize.ShloMosaic.ValueIdx Idealize.ShloMosaic.StableHlo
open Idealize.SL Idealize.SL.Sem
open Cert.KernelIdeal Cert.KernelIdeal.Gen Cert.KernelIdeal.Hand Cert.Chamfer

variable (m : (ℓ : Loc nD τ sig) → Buf (Elt Ideal) ℓ)

/-- The two argument clouds, as launched. -/
abbrev A0 (c : Dev nD) : Cloud 4096 := m ((c : Thread nD τ).loc main_arg0)
abbrev A1 (c : Dev nD) : Cloud 4096 := m ((c : Thread nD τ).loc main_arg1)

/-- Call 0's output array, at the tail's entry: nearest second-cloud point, per point of the first cloud. -/
theorem out0_eq (c : Dev nD) :
    W2 m c (Proc.devRef .tc main_v0) = (fun i : S4x4096.Idx => nearest (A0 m c) (A1 m c) (i 0) (i 1)) :=
  (W2_of_ne m c main_v0 (by decide)).trans ((W1_arr m c 2).trans ((Call0.final (E0 m) c).trans rfl))

/-- Call 1's output array: nearest first-cloud point, per point of the second cloud. -/
theorem out1_eq (c : Dev nD) :
    W2 m c (Proc.devRef .tc main_v1) = (fun i : S4x4096.Idx => nearestT (A0 m c) (A1 m c) (i 0) (i 1)) := by
  refine (W2_arr m c 2).trans ((Call1.final (E1 m) c).trans ?_)
  have key : ∀ (P O : Cloud 4096), P = A1 m c → O = A0 m c →
      (fun i : S4x4096.Idx => nearest P O (i 0) (i 1)) = (fun i : S4x4096.Idx => nearestT (A0 m c) (A1 m c) (i 0) (i 1)) := by
    intro P O hP hO
    subst hP hO
    funext i
    exact (nearestT_eq _ _ _ _).symm
  exact key _ _ (W1_main_arg1 m c) (W1_main_arg0 m c)

/-- The result buffer at the end: the loss of the two output arrays. -/
theorem result_eq (c : Dev nD) :
    W3 m c (Proc.devRef .tc main_v13)
      = loss Gen.reducesTo_S4x4096_S4_d1 Gen.reducesTo_S4_S_d0 Gen.h_S_ Gen.bcast_S_S4
          (W2 m c (Proc.devRef .tc main_v1)) (W2 m c (Proc.devRef .tc main_v0)) := by
  show StableHlo.after hostOps2 (W2 m c) (Proc.devRef .tc main_v13) = _
  after_results
  rfl

end Cert.Chamfer.KernelValue

end
-- ==== Proof.Val.Ref.lean ====
/- The reference program read as the mathematics of the specification.

   The reference computes, for clouds p = x0 and o = x1, the array of squared distances in the expanded form
   (|p_n|² + |o_m|²) − 2·⟨p_n, o_m⟩ at every (b, n, m), then its minimum over n for each m and its minimum over m
   for each n (both from +∞), then the fixed tail of means. Here the array of squared distances is read at an index
   as dist2, the two minima as nearestT and nearest, and the tail as loss of the two arrays of minima. -/
import proofs.«144344_j69870527971439_1_alg».proof.Proof.Gen.ReferenceIdeal.Read
import proofs.«144344_j69870527971439_1_alg».proof.Proof.Spec
import Idealize.ShloMosaic.PureOps.Reduce
import Idealize.ShloMosaic.PureOps.Ideal.Laws
import Idealize.ShloMosaic.Lib.ValueIdx

noncomputable section

namespace Cert.Chamfer.Ref

open Cert.ReferenceIdeal Cert.ReferenceIdeal.Gen Cert.ReferenceIdeal.Read Cert.Chamfer Idealize.ShloMosaic Idealize.ShloMosaic.ValueIdx

/-- The word 0x7F800000 is +∞. -/
theorem ofBits_inf_f32 : Ideal.ofBits .f32 0x7F800000#32 = ⊤ := by simp [Ideal.ofBits, Ideal.ieee]

/-- |p_n|² as the reference computes it: zero plus the sum of the squares of the three coordinates. -/
theorem v1_at (x0 : (⟨S4x4096x3, .f32⟩ : BufTy).Contents (Elt Ideal)) (b : Fin 4) (n : Fin 4096) :
    val_main_v1 (F := Ideal) x0 (ix2 b n) = sqNorm (N := 4096) x0 b n := by
  rw [val_main_v1_apply, val_main_cst_apply]
  unfold sqNorm
  refine (congrArg (· + _) Ideal.ofBits_zero_f32).trans ((zero_add _).trans ?_)
  refine Finset.sum_congr rfl fun d _ => ?_
  rw [val_main_v0_apply]
  have e : idx_main_v1 (ix2 b n) d = ix3 b n d := funext fun a => match a with
    | ⟨0, _⟩ => rfl | ⟨1, _⟩ => rfl | ⟨2, _⟩ => rfl
  rw [e]; rfl

/-- |o_m|² likewise. -/
theorem v3_at (x1 : (⟨S4x4096x3, .f32⟩ : BufTy).Contents (Elt Ideal)) (b : Fin 4) (m : Fin 4096) :
    val_main_v3 (F := Ideal) x1 (ix2 b m) = sqNorm (N := 4096) x1 b m := by
  rw [val_main_v3_apply, val_main_cst_0_apply]
  unfold sqNorm
  refine (congrArg (· + _) Ideal.ofBits_zero_f32).trans ((zero_add _).trans ?_)
  refine Finset.sum_congr rfl fun d _ => ?_
  rw [val_main_v2_apply]
  have e : idx_main_v3 (ix2 b m) d = ix3 b m d := funext fun a => match a with
    | ⟨0, _⟩ => rfl | ⟨1, _⟩ => rfl | ⟨2, _⟩ => rfl
  rw [e]; rfl

/-- ⟨p_n, o_m⟩: the contraction over the three coordinates. -/
theorem v4_at (x0 x1 : (⟨S4x4096x3, .f32⟩ : BufTy).Contents (Elt Ideal)) (b : Fin 4) (n m : Fin 4096) :
    val_main_v4 (F := Ideal) x0 x1 (ix3 b n m) = inner (N := 4096) (M := 4096) x0 x1 b n m := by
  rw [val_main_v4_apply]
  unfold inner
  refine Finset.sum_congr rfl fun d _ => ?_
  have el : lidx_main_v4 (ix3 b n m) d = ix3 b n d := funext fun a => match a with
    | ⟨0, _⟩ => rfl | ⟨1, _⟩ => rfl | ⟨2, _⟩ => rfl
  have er : ridx_main_v4 (ix3 b n m) d = ix3 b m d := funext fun a => match a with
    | ⟨0, _⟩ => rfl | ⟨1, _⟩ => rfl | ⟨2, _⟩ => rfl
  rw [el, er]

/-- The array of squared distances, read at (b, n, m). -/
theorem v12_at (x0 x1 : (⟨S4x4096x3, .f32⟩ : BufTy).Contents (Elt Ideal)) (b : Fin 4) (n m : Fin 4096) :
    val_main_v12 (F := Ideal) x0 x1 (ix3 b n m) = dist2 (N := 4096) (M := 4096) x0 x1 b n m := by
  rw [val_main_v12_apply, val_main_v9_apply, val_main_v11_apply, val_main_v7_apply, val_main_v8_apply,
    val_main_v5_apply, val_main_v6_apply, val_main_v10_apply, val_main_cst_1_apply, v4_at]
  have e7 : idx_main_v5 (idx_main_v7 (ix3 b n m)) = ix2 b n := funext fun a => match a with
    | ⟨0, _⟩ => rfl | ⟨1, _⟩ => rfl
  have e8 : idx_main_v6 (idx_main_v8 (ix3 b n m)) = ix2 b m := funext fun a => match a with
    | ⟨0, _⟩ => rfl | ⟨1, _⟩ => rfl
  rw [e7, e8, v1_at, v3_at]
  rfl

/-- For each point n of the first cloud, the reference's minimum over m is the nearest squared distance. -/
theorem v17_eq (x0 x1 : (⟨S4x4096x3, .f32⟩ : BufTy).Contents (Elt Ideal)) :
    val_main_v17 (F := Ideal) x0 x1 = fun j => nearest (N := 4096) (M := 4096) x0 x1 (j 0) (j 1) := by
  funext j
  obtain ⟨b, n, rfl⟩ : ∃ (b : Fin 4) (n : Fin 4096), j = ix2 b n := ⟨j 0, j 1, eq_ix2 j⟩
  show val_main_v17 (F := Ideal) x0 x1 (ix2 b n) = nearest (N := 4096) (M := 4096) x0 x1 b n
  have h : S4x4096x4096.Reduces [2] S4x4096 := by decide
  unfold val_main_v17 nearest rowMin
  have k1 := Host.reduce_eq_fold_single (FloatOps.minimumf (F := Ideal) (φ := .f32)) (val_main_v12 (F := Ideal) x0 x1)
    (val_main_cst_5 (F := Ideal)) reducesTo_S4x4096x4096_S4x4096_d2 h h_S_ (ix2 b n)
  refine k1.trans ?_
  have hinit : val_main_cst_5 (F := Ideal) (Shape.Idx.first h_S_) = ⊤ := (val_main_cst_5_apply _).trans ofBits_inf_f32
  have hf : (val_main_v12 (F := Ideal) x0 x1 ∘ h.lift (ix2 b n)) = fun m => dist2 (N := 4096) (M := 4096) x0 x1 b n m :=
    funext fun m => by
      have e : h.lift (ix2 b n) m = ix3 b n m := funext fun a => Fin.ext (match a with
        | ⟨0, _⟩ => rfl | ⟨1, _⟩ => rfl | ⟨2, _⟩ => rfl)
      show val_main_v12 (F := Ideal) x0 x1 (h.lift (ix2 b n) m) = _
      rw [e]; exact v12_at x0 x1 b n m
  rw [hinit, hf]; rfl

/-- For each point m of the second cloud, the reference's minimum over n is the nearest squared distance taken over
    the other cloud's points. -/
theorem v13_eq (x0 x1 : (⟨S4x4096x3, .f32⟩ : BufTy).Contents (Elt Ideal)) :
    val_main_v13 (F := Ideal) x0 x1 = fun j => nearestT (N := 4096) (M := 4096) x0 x1 (j 0) (j 1) := by
  funext j
  obtain ⟨b, m, rfl⟩ : ∃ (b : Fin 4) (m : Fin 4096), j = ix2 b m := ⟨j 0, j 1, eq_ix2 j⟩
  show val_main_v13 (F := Ideal) x0 x1 (ix2 b m) = nearestT (N := 4096) (M := 4096) x0 x1 b m
  have h : S4x4096x4096.Reduces [1] S4x4096 := by decide
  unfold val_main_v13 nearestT rowMin
  have k1 := Host.reduce_eq_fold_single (FloatOps.minimumf (F := Ideal) (φ := .f32)) (val_main_v12 (F := Ideal) x0 x1)
    (val_main_cst_2 (F := Ideal)) reducesTo_S4x4096x4096_S4x4096_d1 h h_S_ (ix2 b m)
  refine k1.trans ?_
  have hinit : val_main_cst_2 (F := Ideal) (Shape.Idx.first h_S_) = ⊤ := (val_main_cst_2_apply _).trans ofBits_inf_f32
  have hf : (val_main_v12 (F := Ideal) x0 x1 ∘ h.lift (ix2 b m)) = fun n => dist2 (N := 4096) (M := 4096) x0 x1 b n m :=
    funext fun n => by
      have e : h.lift (ix2 b m) n = ix3 b n m := funext fun a => Fin.ext (match a with
        | ⟨0, _⟩ => rfl | ⟨1, _⟩ => rfl | ⟨2, _⟩ => rfl)
      show val_main_v12 (F := Ideal) x0 x1 (h.lift (ix2 b m) n) = _
      rw [e]; exact v12_at x0 x1 b n m
  rw [hinit, hf]; rfl

/-- The reference's tail is the loss of its two arrays of minima: the same operations on the same words. -/
theorem v26_eq (x0 x1 : (⟨S4x4096x3, .f32⟩ : BufTy).Contents (Elt Ideal)) :
    val_main_v26 (F := Ideal) x0 x1
      = loss reducesTo_S4x4096_S4_d1 reducesTo_S4_S_d0 h_S_ bcast_S_S4 (val_main_v13 (F := Ideal) x0 x1) (val_main_v17 (F := Ideal) x0 x1) := by
  unfold val_main_v26 val_main_v25 val_main_v24 val_main_v23 val_main_v22 val_main_v21 val_main_v20 val_main_v19
    val_main_v18 val_main_v16 val_main_v15 val_main_v14 val_main_cst_11 val_main_cst_10 val_main_cst_9 val_main_cst_8
    val_main_cst_7 val_main_cst_6 val_main_cst_4 val_main_cst_3 loss
  rfl

end Cert.Chamfer.Ref

end
-- ==== Proof.Val.Bridge.lean ====
/- The two idealized programs compute one function of the arguments.

   The reference's result is the loss of its two arrays of minima — over the second cloud's points for each point of the
   first, and over the first cloud's points for each point of the second — of one array of expanded squared distances.
   The kernel program's result is the same loss of the two calls' output arrays, which hold the same two arrays of minima. -/
import proofs.«144344_j69870527971439_1_alg».proof.Proof.Val.Kernel
import proofs.«144344_j69870527971439_1_alg».proof.Proof.Val.Ref

set_option maxRecDepth 16384

noncomputable section

namespace Cert.Chamfer.Bridge

open Idealize.ShloMosaic Idealize.ShloMosaic.TcCoe Idealize.SL.Sem
open Cert.Chamfer Cert.Chamfer.KernelValue

/-- The reference's result term, at the kernel program's argument arrays, is the kernel program's result buffer. -/
theorem ref_eq_kernel (m : (ℓ : Loc Cert.KernelIdeal.nD Cert.KernelIdeal.τ Cert.KernelIdeal.sig) → Buf (Elt Ideal) ℓ) (c : Dev Cert.KernelIdeal.nD) :
    Cert.ReferenceIdeal.Read.val_main_v26 (F := Ideal) (A0 m c) (A1 m c)
      = Cert.KernelIdeal.Hand.W3 m c (Proc.devRef .tc Cert.KernelIdeal.main_v13) := by
  rw [Ref.v26_eq, Ref.v13_eq, Ref.v17_eq, result_eq, out1_eq, out0_eq]

end Cert.Chamfer.Bridge

end
-- ==== Proof.lean ====
/- The certificate of the tiled nearest-point loss against its whole-array reference.

   The kernel program runs one kernel function twice — on (first cloud, second cloud) and on the swapped pair — over an
   8 × 8 grid of 512-point tiles, keeping in a scratch buffer the running minimum, over the key tiles seen so far, of the
   squared distances in the expanded form |p|² + |o|² − 2⟨p, o⟩, restarting it from +∞ at the first key tile of each query
   tile and writing it out at the last; the host then averages and scales. The reference builds the whole 4096 × 4096
   array of the same expanded distances and takes its minima along either axis.

   FRAMES. Each of the two kernel programs' runs is the chain: call 0, call 1, the host tail (the `Launch` modules).
   A call's body obligation is met point by point in three cases (first, middle, last key tile), the region's invariant
   carrying the scratch at the running minimum's value from point to point. The reference's frame is its run read back.
   VALUE. At the extended reals the kernel's update step at a row is "min with the tile's row minimum"; a minimum is
   determined by its lower bounds, so after the last key tile the accumulator is the minimum over all 4096 keys, whatever
   the tiling; the written-back blocks tile the output. Call 1's array is the reference's minimum along the other axis by
   the symmetry of the expanded distance under swapping the clouds (commutativity of + and · only: no finiteness is
   used). Both programs then apply the same host operations to the two arrays. The idealization rewrote nothing, so
   `preserves` is trivial. -/
import proofs.«144344_j69870527971439_1_alg».proof.Defs
import proofs.«144344_j69870527971439_1_alg».proof.Proof.Gen.Kernel
import proofs.«144344_j69870527971439_1_alg».proof.Proof.Gen.KernelIdeal
import proofs.«144344_j69870527971439_1_alg».proof.Proof.Gen.ReferenceIdeal
import proofs.«144344_j69870527971439_1_alg».proof.Proof.Gen.Pre_finite_inputs
import proofs.«144344_j69870527971439_1_alg».proof.Proof.Gen.ReferenceIdeal.Run
import proofs.«144344_j69870527971439_1_alg».proof.Proof.K.Launch
import proofs.«144344_j69870527971439_1_alg».proof.Proof.KI.Launch
import proofs.«144344_j69870527971439_1_alg».proof.Proof.Val.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ =>
  (θ_run (Cert.Kernel.defs (F := Bits)) _ _).mono (fun _ h c => (h c).2) (Cert.Kernel.Hand.run_main (F := Bits) m ρ)

theorem frame_ki : Cert.frame_KernelIdeal := fun m ρ _ =>
  (θ_run (Cert.KernelIdeal.defs (F := Ideal)) _ _).mono (fun _ h c => (h c).2) (Cert.KernelIdeal.Hand.run_main (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the result buffer at the kernel program's last valuation's value: the kernel
    program by its run, the reference because its result term is that value (`ref_eq_kernel`) at arguments that agree. -/
theorem algebraic : Cert.algebraic_KernelIdeal_ReferenceIdeal := by
  intro m ρ m' ρ' _ hagree
  refine ⟨fun c => Cert.KernelIdeal.Hand.W3 m c (Proc.devRef .tc Cert.KernelIdeal.main_v13),
    Cert.KernelIdeal.Hand.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v26_eq _ _).trans (Cert.Chamfer.Bridge.ref_eq_kernel m c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
